-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16384 : Shape := ⟨2, ![4096, 16384]⟩
abbrev S16384 : Shape := ⟨1, ![16384]⟩
abbrev S_ : Shape := ⟨0, ![]⟩

class Facts : Prop where
  bcast_S_S4096x16384 : S_.BroadcastsInDim S4096x16384 (![] : Fin 0 → Fin S4096x16384.rank)
  reducesTo_S4096x16384_S_d0_1 : S4096x16384.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S4096x16384 .f32) (main_arg1 : FVec F S16384 .f32) (main_arg2 : IVec S16384 32) : IVec S_ 1 :=
  let main_v0 : FVec F S4096x16384 .f32 := Host.absf main_arg0
  let main_cst : FVec F S_ .f32 := constant S_ .f32 0x7F800000#32
  let main_v1 : FVec F S4096x16384 .f32 := broadcastInDim S4096x16384 ![] bcast_S_S4096x16384 main_cst
  let main_v2 : IVec S4096x16384 1 := cmpf .olt main_v0 main_v1
  let main_c : IVec S_ 1 := constantI S_ 1 1#1
  let main_v3 : IVec S_ 1 := (fun x v => Host.reduce IntOp.andi x v reducesTo_S4096x16384_S_d0_1 h_S_) main_v2 main_c
  let main_v4 : FVec F S16384 .f32 := Host.absf main_arg1
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  main_v8
-- ==== Kernel.lean ====
abbrev S4096x16384 : Shape := ⟨2, ![4096, 16384]⟩
abbrev S16384 : Shape := ⟨1, ![16384]⟩
abbrev S_ : Shape := ⟨0, ![]⟩
abbrev S1x16384 : Shape := ⟨2, ![1, 16384]⟩
abbrev S128x128 : Shape := ⟨2, ![128, 128]⟩
abbrev S128x16384 : Shape := ⟨2, ![128, 16384]⟩
abbrev S128x1 : Shape := ⟨2, ![128, 1]⟩
abbrev S128 : Shape := ⟨1, ![128]⟩

abbrev nBuf : Space → Nat
  | .hbm => 28
  | .vmem => 6
  | .smem => 0
  | _ => 0

abbrev bufTy : (tb : Table) → Fin (tcTables nBuf tb) → BufTy
  | .hbm, ⟨0, _⟩ => ⟨S4096x16384, .f32⟩
  | .hbm, ⟨1, _⟩ => ⟨S16384, .f32⟩
  | .hbm, ⟨2, _⟩ => ⟨S16384, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S_, .i32⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S_, .i32⟩
  | .hbm, ⟨12, _⟩ => ⟨S16384, .i32⟩
  | .hbm, ⟨13, _⟩ => ⟨S16384, .i1⟩
  | .hbm, ⟨14, _⟩ => ⟨S_, .i32⟩
  | .hbm, ⟨15, _⟩ => ⟨S16384, .i32⟩
  | .hbm, ⟨16, _⟩ => ⟨S16384, .i1⟩
  | .hbm, ⟨17, _⟩ => ⟨S_, .i32⟩
  | .hbm, ⟨18, _⟩ => ⟨S_, .i1⟩
  | .hbm, ⟨19, _⟩ => ⟨S16384, .i1⟩
  | .hbm, ⟨20, _⟩ => ⟨S16384, .i1⟩
  | .hbm, ⟨21, _⟩ => ⟨S16384, .i1⟩
  | .hbm, ⟨22, _⟩ => ⟨S16384, .i32⟩
  | .hbm, ⟨23, _⟩ => ⟨S16384, .i32⟩
  | .hbm, ⟨24, _⟩ => ⟨S16384, .i32⟩
  | .hbm, ⟨25, _⟩ => ⟨S1x16384, .i32⟩
  | .hbm, ⟨26, _⟩ => ⟨S1x16384, .f32⟩
  | .hbm, ⟨27, _⟩ => ⟨S4096x16384, .f32⟩
  | .local _ .vmem, ⟨0, _⟩ => ⟨S128x128, .f32⟩
  | .local _ .vmem, ⟨1, _⟩ => ⟨S128x128, .f32⟩
  | .local _ .vmem, ⟨2, _⟩ => ⟨S1x16384, .i32⟩
  | .local _ .vmem, ⟨3, _⟩ => ⟨S1x16384, .f32⟩
  | .local _ .vmem, ⟨4, _⟩ => ⟨S128x16384, .f32⟩
  | .local _ .vmem, ⟨5, _⟩ => ⟨S128x16384, .f32⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_c_1 : Ref sig .tc := ⟨.hbm, 11, rfl⟩
abbrev main_call0_v5 : Ref sig .tc := ⟨.hbm, 12, rfl⟩
abbrev main_call0_v6 : Ref sig .tc := ⟨.hbm, 13, rfl⟩
abbrev main_call0_c_2 : Ref sig .tc := ⟨.hbm, 14, rfl⟩
abbrev main_call0_v7 : Ref sig .tc := ⟨.hbm, 15, rfl⟩
abbrev main_call0_v8 : Ref sig .tc := ⟨.hbm, 16, rfl⟩
abbrev main_call0_c_3 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![32, 128], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x16384 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x16384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S128x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S16384 : S_.BroadcastsInDim S16384 (![] : Fin 0 → Fin S16384.rank)
  shapeCasts_S16384_S1x16384 : S16384.ShapeCasts S1x16384
  inb_S128x16384_S128x16384_0_0 : ∀ a, (![0, 0] : Fin 2 → Nat) a + S128x16384.size a ≤ S128x16384.size a
  h_S128x16384 : 0 < S128x16384.numel
  iota_S128x1_d0_w32 : S128x1.Iotas .tc 32 [0]
  inb_S1x16384_S1x16384_0_0 : ∀ a, (![0, 0] : Fin 2 → Nat) a + S1x16384.size a ≤ S1x16384.size a
  h_S1x16384 : 0 < S1x16384.numel
  shapeCasts_S1x16384_S1x16384 : S1x16384.ShapeCasts S1x16384
  broadcasts_S128x1_S128x16384 : S128x1.Broadcasts S128x16384
  broadcasts_S1x16384_S128x16384 : S1x16384.Broadcasts S128x16384
  natLt_1_32 : 1 < 32
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x16384_S128x16384 : S128x16384.ShapeCasts S128x16384
  reduces_S128x16384_S128 : S128x16384.Reduces [1] S128
  shapeCasts_S128_S128x1 : S128.ShapeCasts S128x1
  dot_S128x128_S128x16384_S128x16384_1_0_0_1_n_n_wf : DotDims.WF S128x128 S128x16384 S128x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S4096x16384.size a
  hwx0_0 : ∀ i : grid0.Coords, EltTy.bits .f32 = 32 ∨ (Rect.block (s := S4096x16384) S128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x16384.size a ≤ S1x16384.size a
  hwx0_1 : ∀ i : grid0.Coords, EltTy.bits .i32 = 32 ∨ (Rect.block (s := S1x16384) S1x16384.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16384.size a ≤ S1x16384.size a
  hwx0_2 : ∀ i : grid0.Coords, EltTy.bits .f32 = 32 ∨ (Rect.block (s := S1x16384) S1x16384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x16384.size a ≤ S4096x16384.size a
  hwx0_3 : ∀ i : grid0.Coords, EltTy.bits .f32 = 32 ∨ (Rect.block (s := S4096x16384) S128x16384.size (cc0_transform_3 i) (hinb0_3 i)).WholeWords (EltTy.packing .f32)

variable [Facts₀]

def dot_S128x128_S128x16384_S128x16384_1_0_0_1_n_n : DotDims S128x128 S128x16384 S128x16384 where
  lhsContracting := [1]
  rhsContracting := [0]
  lhsNonContracting := [0]
  rhsNonContracting := [1]
  lhsBatch := []
  rhsBatch := []
  wf := dot_S128x128_S128x16384_S128x16384_1_0_0_1_n_n_wf

abbrev win0_0 : Pipeline.Window sig grid0 :=
  Pipeline.Window.ofSpec (Memref.whole main_arg0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x16384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x16384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x16384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x16384 : Shape := ⟨2, ![4096, 16384]⟩
abbrev S16384 : Shape := ⟨1, ![16384]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S1x16384 : Shape := ⟨2, ![1, 16384]⟩
abbrev S4096 : Shape := ⟨1, ![4096]⟩
abbrev S4096x1 : Shape := ⟨2, ![4096, 1]⟩

abbrev nBuf : Space → Nat
  | .hbm => 65
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S16384, .f32⟩
  | .hbm, ⟨2, _⟩ => ⟨S16384, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S_, .i32⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S_, .i32⟩
  | .hbm, ⟨12, _⟩ => ⟨S16384, .i32⟩
  | .hbm, ⟨13, _⟩ => ⟨S16384, .i1⟩
  | .hbm, ⟨14, _⟩ => ⟨S_, .i32⟩
  | .hbm, ⟨15, _⟩ => ⟨S16384, .i32⟩
  | .hbm, ⟨16, _⟩ => ⟨S16384, .i1⟩
  | .hbm, ⟨17, _⟩ => ⟨S_, .i32⟩
  | .hbm, ⟨18, _⟩ => ⟨S_, .i1⟩
  | .hbm, ⟨19, _⟩ => ⟨S16384, .i1⟩
  | .hbm, ⟨20, _⟩ => ⟨S16384, .i1⟩
  | .hbm, ⟨21, _⟩ => ⟨S16384, .i1⟩
  | .hbm, ⟨22, _⟩ => ⟨S16384, .i32⟩
  | .hbm, ⟨23, _⟩ => ⟨S16384, .i32⟩
  | .hbm, ⟨24, _⟩ => ⟨S16384, .i32⟩
  | .hbm, ⟨25, _⟩ => ⟨S_, .i32⟩
  | .hbm, ⟨26, _⟩ => ⟨S16384, .i32⟩
  | .hbm, ⟨27, _⟩ => ⟨S16384, .i1⟩
  | .hbm, ⟨28, _⟩ => ⟨S_, .i32⟩
  | .hbm, ⟨29, _⟩ => ⟨S16384, .i32⟩
  | .hbm, ⟨30, _⟩ => ⟨S16384, .i32⟩
  | .hbm, ⟨31, _⟩ => ⟨S16384, .i32⟩
  | .hbm, ⟨32, _⟩ => ⟨S16384x1, .i32⟩
  | .hbm, ⟨33, _⟩ => ⟨S1, .i32⟩
  | .hbm, ⟨34, _⟩ => ⟨S_, .i32⟩
  | .hbm, ⟨35, _⟩ => ⟨S16384x1, .i32⟩
  | .hbm, ⟨36, _⟩ => ⟨S16384x1, .i1⟩
  | .hbm, ⟨37, _⟩ => ⟨S1x1, .i32⟩
  | .hbm, ⟨38, _⟩ => ⟨S16384x1, .i32⟩
  | .hbm, ⟨39, _⟩ => ⟨S16384x1, .i1⟩
  | .hbm, ⟨40, _⟩ => ⟨S16384x1, .i1⟩
  | .hbm, ⟨41, _⟩ => ⟨S_, .i1⟩
  | .hbm, ⟨42, _⟩ => ⟨S16384, .i1⟩
  | .hbm, ⟨43, _⟩ => ⟨S4096x16384, .f32⟩
  | .hbm, ⟨44, _⟩ => ⟨S4096x16384, .i1⟩
  | .hbm, ⟨45, _⟩ => ⟨S_, .f32⟩
  | .hbm, ⟨46, _⟩ => ⟨S4096x16384, .f32⟩
  | .hbm, ⟨47, _⟩ => ⟨S4096x16384, .f32⟩
  | .hbm, ⟨48, _⟩ => ⟨S1x16384, .f32⟩
  | .hbm, ⟨49, _⟩ => ⟨S4096x16384, .f32⟩
  | .hbm, ⟨50, _⟩ => ⟨S4096x16384, .f32⟩
  | .hbm, ⟨51, _⟩ => ⟨S_, .f32⟩
  | .hbm, ⟨52, _⟩ => ⟨S4096, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S4096x16384, .f32⟩
  | .hbm, ⟨61, _⟩ => ⟨S4096x16384, .f32⟩
  | .hbm, ⟨62, _⟩ => ⟨S_, .f32⟩
  | .hbm, ⟨63, _⟩ => ⟨S4096x16384, .f32⟩
  | .hbm, ⟨64, _⟩ => ⟨S4096x16384, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_c_1 : Ref sig .tc := ⟨.hbm, 11, rfl⟩
abbrev main_call0_v5 : Ref sig .tc := ⟨.hbm, 12, rfl⟩
abbrev main_call0_v6 : Ref sig .tc := ⟨.hbm, 13, rfl⟩
abbrev main_call0_c_2 : Ref sig .tc := ⟨.hbm, 14, rfl⟩
abbrev main_call0_v7 : Ref sig .tc := ⟨.hbm, 15, rfl⟩
abbrev main_call0_v8 : Ref sig .tc := ⟨.hbm, 16, rfl⟩
abbrev main_call0_c_3 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_v0 : Ref sig .tc := ⟨.hbm, 24, rfl⟩
abbrev main_call1_c : Ref sig .tc := ⟨.hbm, 25, rfl⟩
abbrev main_call1_v0 : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_c_1 : Ref sig .tc := ⟨.hbm, 33, rfl⟩
abbrev main_call1_c_2 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_3 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_call1_cst : Ref sig .tc := ⟨.hbm, 45, rfl⟩
abbrev main_call1_v15 : Ref sig .tc := ⟨.hbm, 46, rfl⟩
abbrev main_v1 : Ref sig .tc := ⟨.hbm, 47, rfl⟩
abbrev main_v2 : Ref sig .tc := ⟨.hbm, 48, rfl⟩
abbrev main_v3 : Ref sig .tc := ⟨.hbm, 49, rfl⟩
abbrev main_v4 : Ref sig .tc := ⟨.hbm, 50, rfl⟩
abbrev main_cst : Ref sig .tc := ⟨.hbm, 51, rfl⟩
abbrev main_v5 : Ref sig .tc := ⟨.hbm, 52, rfl⟩
abbrev main_v6 : Ref sig .tc := ⟨.hbm, 53, rfl⟩
abbrev main_cst_0 : Ref sig .tc := ⟨.hbm, 54, rfl⟩
abbrev main_v7 : Ref sig .tc := ⟨.hbm, 55, rfl⟩
abbrev main_v8 : Ref sig .tc := ⟨.hbm, 56, rfl⟩
abbrev main_cst_1 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_cst_2 : Ref sig .tc := ⟨.hbm, 62, rfl⟩
abbrev main_v13 : Ref sig .tc := ⟨.hbm, 63, rfl⟩
abbrev main_v14 : Ref sig .tc := ⟨.hbm, 64, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S4096x16384_1 : S16384.BroadcastsInDim S4096x16384 (![1] : Fin 1 → Fin S4096x16384.rank)
  bcast_S_S4096x16384 : S_.BroadcastsInDim S4096x16384 (![] : Fin 0 → Fin S4096x16384.rank)
  bcast_S16384_S1x16384_1 : S16384.BroadcastsInDim S1x16384 (![1] : Fin 1 → Fin S1x16384.rank)
  bcast_S1x16384_S4096x16384_0_1 : S1x16384.BroadcastsInDim S4096x16384 (![0, 1] : Fin 2 → Fin S4096x16384.rank)
  reducesTo_S4096x16384_S4096_d1 : S4096x16384.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x16384_0_1 : S4096x1.BroadcastsInDim S4096x16384 (![0, 1] : Fin 2 → Fin S4096x16384.rank)
  gather_S4096x16384_S16384x1_S4096x16384_0_1_n_n_1_1_40961_wf : GatherDims.WF S4096x16384 S16384x1 S4096x16384 [0] [1] [] [1] [] 1 ![4096, 1]

variable [Facts₀]

def gather_S4096x16384_S16384x1_S4096x16384_0_1_n_n_1_1_40961 : GatherDims S4096x16384 S16384x1 S4096x16384 where
  offsetDims := [0]
  collapsedSliceDims := [1]
  operandBatchingDims := []
  startIndicesBatchingDims := []
  startIndexMap := [1]
  indexVectorDim := 1
  sliceSizes := ![4096, 1]
  wf := gather_S4096x16384_S16384x1_S4096x16384_0_1_n_n_1_1_40961_wf

class Facts : Prop extends Facts₀ where

variable [Facts]
-- ==== Proof.Spec.lean ====
/-
  The function both programs compute, and the word arithmetic under its gather.

  For a batch row b and a neuron n the neuron's preferred feature is the input word `a2 n` reduced modulo
  16384 the NumPy way (the remainder of the dividend's sign, moved up by 16384 when it is negative), a column
  `col (a2 n)` in [0, 16384).  The neuron's activity is that column of the row scaled by its weight,
      s b n = enc b (col (a2 n)) * w n,
  and the result is the activity less a tenth of the row's mean activity, rectified:
      G b n = max (s b n - c * ((sum over n' of s b n') / 16384)) 0 .
  The literals are kept as the words the programs print.
-/
import Idealize.ShloMosaic.PureOps.Ideal
import Idealize.ShloMosaic.Lib.ValueIdx

noncomputable section

namespace Cert.Gather

open Idealize.ShloMosaic Idealize.ShloMosaic.ValueIdx

/-- The shape of the feature array and of the result: 4096 rows of 16384 entries. -/
abbrev SB : Shape := ⟨2, ![4096, 16384]⟩
/-- The shape of the weights and of the preferences: one entry per neuron. -/
abbrev SN : Shape := ⟨1, ![16384]⟩

/-- The divisor as the program computes it: 16384 unless that were zero. -/
def divisor : BitVec 32 := Scalar.select (IntOp.cmpi .eq 16384#32 0#32) 1#32 16384#32

theorem divisor_eq : divisor = 16384#32 := by decide

/-- NumPy's remainder of a signed 32-bit word by 16384: the truncating remainder `r`, and `r + 16384`
    where `r` is not zero and its sign differs from the divisor's. -/
def pmodWord (x : BitVec 32) : BitVec 32 :=
  Scalar.select
    (IntOp.andi
      (IntOp.cmpi .ne (IntOp.cmpi .slt (IntOp.remsi .host x divisor) 0#32) (IntOp.cmpi .slt divisor 0#32))
      (IntOp.cmpi .ne (IntOp.remsi .host x divisor) 0#32))
    (IntOp.addi (IntOp.remsi .host x divisor) divisor)
    (IntOp.remsi .host x divisor)

/-- The column a preference word picks. -/
def col (x : BitVec 32) : Fin 16384 := ⟨(pmodWord x).toNat % 16384, Nat.mod_lt _ (by decide)⟩

/-- A neuron's activity on a batch row: its preferred feature scaled by its weight. -/
def act (enc : SB.Idx → EReal) (w : SN.Idx → EReal) (a2 : SN.Idx → BitVec 32) (b : Fin 4096) (n : Fin 16384) : EReal :=
  enc (ix2 b (col (a2 (ix1 n)))) * w (ix1 n)

/-- The result at row `b`, neuron `n`. -/
def Gat (enc : SB.Idx → EReal) (w : SN.Idx → EReal) (a2 : SN.Idx → BitVec 32) (b : Fin 4096) (n : Fin 16384) : EReal :=
  max (act enc w a2 b n
        - (Ideal.ofBits .f32 0x3DCCCCCD#32 : EReal)
          * Ideal.div (∑ n' : Fin 16384, act enc w a2 b n') (Ideal.ofBits .f32 0x46800000#32))
      (Ideal.ofBits .f32 0x00000000#32)

/-- The result array. -/
def G (enc : SB.Idx → EReal) (w : SN.Idx → EReal) (a2 : SN.Idx → BitVec 32) : SB.Idx → EReal :=
  fun y => Gat enc w a2 (y 0) (y 1)

theorem G_ix2 (enc : SB.Idx → EReal) (w : SN.Idx → EReal) (a2 : SN.Idx → BitVec 32) (b : Fin 4096) (n : Fin 16384) :
    G enc w a2 (ix2 b n) = Gat enc w a2 b n := rfl

end Cert.Gather

end
-- ==== Proof.LibTRef.lean ====
/-
  Typed references of a module-local function: moving a value to the buffer's own type and back is the identity.

  An operation of an outlined function is stated over references that carry the type of the tensor they hold; its
  function is moved to the buffer's own contents type along the equation of the two types (`toBuf`) and each operand
  is moved back (`ofBuf`). Reading a line of such operations leaves a pair `ofBuf (toBuf v)` around every
  intermediate value; the pair is the identity, whatever the reference.
-/
import Idealize.ShloMosaic.Lib.StableHlo

namespace Idealize.ShloMosaic.StableHlo.TRef

variable {sig : RefSig} {Val : EltTy → Type} {T : BufTy}

/-- To the buffer's type and back. -/
theorem ofBuf_toBuf (x : TRef sig T) (v : T.Contents Val) : x.ofBuf (x.toBuf v) = v := by
  obtain ⟨r, rfl, h1, h2⟩ := x
  rfl

/-- Back and to the buffer's type. -/
theorem toBuf_ofBuf (x : TRef sig T) (v : x.ref.ty.Contents Val) : x.toBuf (x.ofBuf v) = v := by
  obtain ⟨r, rfl, h1, h2⟩ := x
  rfl

end Idealize.ShloMosaic.StableHlo.TRef
-- ==== Proof.KernelBlocks.lean ====
/-
  What the kernel's windows read.

  The grid has 32 row blocks of 128 rows and, inside each, 128 feature tiles of 128 columns; point t is row
  block t / 128 at tile t % 128.  Window 0's block at t is rows 128 (t / 128) + p and columns 128 (t % 128) + k of
  the feature array; windows 1 and 2 are the whole preference row and weight row at every point.  The host lines
  before the region leave, in the preference row, every input word reduced modulo 16384 the NumPy way, and in the
  weight row the weights themselves, both laid out as one row of 16384 entries.
-/
import proofs.«400493_j87935160418550_1_alg».proof.Proof.Gen.KernelIdeal.Value
import proofs.«400493_j87935160418550_1_alg».proof.Proof.Spec
import proofs.«400493_j87935160418550_1_alg».proof.Proof.LibTRef
import Idealize.ShloMosaic.Lib.Pipeline.Value
import Idealize.ShloMosaic.Lib.StableHlo.Run
import Idealize.ShloMosaic.Lib.ValueIdx
import Idealize.ShloMosaic.Lib.ValueLayout

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.StableHlo

variable {F : FTy → Type} [FloatOps F]
variable (m : (ℓ : Loc nD τ sig) → Buf (Elt F) ℓ)

/-- The three argument arrays and the two rows the host lines make, at their literal types. -/
abbrev enc (c : Dev nD) : Vec F S4096x16384 .f32 := m ((c : Thread nD τ).loc main_arg0)
abbrev wts (c : Dev nD) : Vec F S16384 .f32 := m ((c : Thread nD τ).loc main_arg1)
abbrev prefs (c : Dev nD) : Vec F S16384 .i32 := m ((c : Thread nD τ).loc main_arg2)
abbrev prow (c : Dev nD) : Vec F S1x16384 .i32 := V m c main_v1
abbrev wrow (c : Dev nD) : Vec F S1x16384 .f32 := V m c main_v2
abbrev earr (c : Dev nD) : Vec F S4096x16384 .f32 := V m c main_arg0

/-- The feature array is as launched when the region is entered. -/
theorem earr_eq (c : Dev nD) : earr m c = enc m c := V_main_arg0 m c

set_option maxHeartbeats 1000000 in
/-- The preference row: every input word reduced modulo 16384, as one row. -/
theorem prow_eq (c : Dev nD) :
    prow m c = shapeCast S1x16384 (fun i => Cert.Gather.pmodWord (prefs m c i)) shapeCasts_S16384_S1x16384 := by
  show (V m c main_v1 : Vec F S1x16384 .i32) = _
  dsimp only [V]
  simp only [hostOps0, hostOps0_1, hostOps0_2, List.flatten_cons, List.flatten_nil, List.append_nil, List.cons_append, List.nil_append]
  after_results_simp
  simp only [TRef.ofBuf_toBuf]
  rfl

set_option maxHeartbeats 1000000 in
/-- The weight row: the weights, as one row. -/
theorem wrow_eq (c : Dev nD) : wrow m c = shapeCast S1x16384 (wts m c) shapeCasts_S16384_S1x16384 := by
  show (V m c main_v2 : Vec F S1x16384 .f32) = _
  dsimp only [V]
  simp only [hostOps0, hostOps0_1, hostOps0_2, List.flatten_cons, List.flatten_nil, List.append_nil, List.cons_append, List.nil_append]
  after_results_simp
  rfl

/-- The preference row at neuron q. -/
theorem prow_apply (c : Dev nD) (q : Fin 16384) :
    prow m c (ix2 (0 : Fin 1) q) = Cert.Gather.pmodWord (prefs m c (ix1 q)) := by
  rw [prow_eq]
  exact shapeCast_a_1a_apply _ _ 0 q

/-- The weight row at neuron q. -/
theorem wrow_apply (c : Dev nD) (q : Fin 16384) : wrow m c (ix2 (0 : Fin 1) q) = wts m c (ix1 q) := by
  rw [wrow_eq]
  exact shapeCast_a_1a_apply _ _ 0 q

end Cert.KernelIdeal.Blocks

end
-- ==== Proof.KernelPieces.lean ====
/-
  What each control case of the kernel body leaves in the output block, as a term of the body's arithmetic.

  The body has three cases over the feature-tile number f of a grid point: the first tile (f = 0) stores the
  zero block and then the zero block plus the tile's product; a middle tile stores the running block plus the
  tile's product; the last tile (f = 127) does that, then scales the block by the weight row, then subtracts
  a tenth of each row's mean and rectifies.  Every store covers the whole block, so the block ends at the last
  store's value, and a value loaded back after a store is the value stored.
-/
import proofs.«400493_j87935160418550_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- A load of the whole block after stores of which the latest covers it reads that store's value. -/
theorem readCov_latest {Val : EltTy → Type} [∀ e, Nonempty (Val e)] {sig : RefSig} {κ : Kind} {sp : Space} {S : Shape} {e : EltTy}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., by
    show y ∈ (Rect.whole S).set; rw [Rect.set_whole]; exact Finset.mem_univ y⟩), View.canon_cons_unit_zero rfl, View.ld_unit_zero rfl]

/-- A middle tile: the running block `xo` plus the tile's product. -/
theorem out_B (c : Dev nD) (i : grid0.Coords) (arg2 : Memref sig .tc .vmem S128x128 .f32) (harg2 : arg2.IsWhole) (arg3 : Memref sig .tc .vmem S1x16384 .i32) (harg3 : arg3.IsWhole) (arg4 : Memref sig .tc .vmem S1x16384 .f32) (harg4 : arg4.IsWhole) (arg5 : Memref sig .tc .vmem S128x16384 .f32) (harg5 : arg5.IsWhole) (hc0 : ¬cond0_0 i) (hc1 : ¬cond0_1 i)
    (x0 : Vec F S128x128 .f32) (x1 : Vec F S1x16384 .i32) (x2 : Vec F S1x16384 .f32) (xo : Vec F S128x16384 .f32) :
    out0_B_3 c i arg2 harg2 arg3 harg3 arg4 harg4 arg5 harg5 hc0 hc1 x0 x1 x2 xo = k0_pay2 i x1 x0 xo := by
  unfold out0_B_3
  rw [View.read_writes_eq_canon _ _ _ (cover0_B_3 c i arg2 harg2 arg3 harg3 arg4 harg4 arg5 harg5 hc0 hc1 x0 x1 x2 xo)]
  unfold kernelRun0_B
  dsimp only
  sl_unfold_words
  rw [View.canon_unit_zero hz]
  simp only [View.readAt_eq_ld, harg2.read_unread, harg3.read_unread, harg5.read_unread,
    View.ld_unit_zero (S := S128x128) hz, View.ld_unit_zero (S := S1x16384) hz, View.ld_unit_zero (S := S128x16384) hz]

/-- The first tile: the zero block plus the tile's product. -/
theorem out_A (c : Dev nD) (i : grid0.Coords) (arg2 : Memref sig .tc .vmem S128x128 .f32) (harg2 : arg2.IsWhole) (arg3 : Memref sig .tc .vmem S1x16384 .i32) (harg3 : arg3.IsWhole) (arg4 : Memref sig .tc .vmem S1x16384 .f32) (harg4 : arg4.IsWhole) (arg5 : Memref sig .tc .vmem S128x16384 .f32) (harg5 : arg5.IsWhole) (hc0 : cond0_0 i) (hc1 : ¬cond0_1 i)
    (x0 : Vec F S128x128 .f32) (x1 : Vec F S1x16384 .i32) (x2 : Vec F S1x16384 .f32) :
    out0_A_3 c i arg2 harg2 arg3 harg3 arg4 harg4 arg5 harg5 hc0 hc1 x0 x1 x2 = k0_pay2 i x1 x0 (k0_pay1 (F := F)) := by
  unfold out0_A_3
  rw [View.read_writes_eq_canon _ _ _ (cover0_A_3 c i arg2 harg2 arg3 harg3 arg4 harg4 arg5 harg5 hc0 hc1 x0 x1 x2)]
  unfold kernelRun0_A
  dsimp only
  sl_unfold_words
  rw [View.canon_cons_unit_zero (S := S128x16384) hz, View.readCov_unit_zero (S := S128x16384) _ hz]
  simp only [View.readAt_eq_ld, harg2.read_unread, harg3.read_unread,
    View.ld_unit_zero (S := S128x128) hz, View.ld_unit_zero (S := S1x16384) hz]

/-- The last tile: the accumulated block scaled by the weights, less a tenth of the row means, rectified. -/
theorem out_C (c : Dev nD) (i : grid0.Coords) (arg2 : Memref sig .tc .vmem S128x128 .f32) (harg2 : arg2.IsWhole) (arg3 : Memref sig .tc .vmem S1x16384 .i32) (harg3 : arg3.IsWhole) (arg4 : Memref sig .tc .vmem S1x16384 .f32) (harg4 : arg4.IsWhole) (arg5 : Memref sig .tc .vmem S128x16384 .f32) (harg5 : arg5.IsWhole) (hc0 : ¬cond0_0 i) (hc1 : cond0_1 i)
    (x0 : Vec F S128x128 .f32) (x1 : Vec F S1x16384 .i32) (x2 : Vec F S1x16384 .f32) (xo : Vec F S128x16384 .f32) :
    out0_C_3 c i arg2 harg2 arg3 harg3 arg4 harg4 arg5 harg5 hc0 hc1 x0 x1 x2 xo
      = k0_pay4 (k0_pay3 (k0_pay2 i x1 x0 xo) x2) (k0_pay3 (k0_pay2 i x1 x0 xo) x2) := by
  unfold out0_C_3
  rw [View.read_writes_eq_canon _ _ _ (cover0_C_3 c i arg2 harg2 arg3 harg3 arg4 harg4 arg5 harg5 hc0 hc1 x0 x1 x2 xo)]
  unfold kernelRun0_C
  dsimp only
  sl_unfold_words
  rw [View.canon_cons_unit_zero (S := S128x16384) hz]
  simp only [readCov_latest (S := S128x16384) _ hz, View.readCov_unit_zero (S := S128x16384) _ hz,
    View.readAt_eq_ld, harg2.read_unread, harg3.read_unread, harg4.read_unread, harg5.read_unread,
    View.ld_unit_zero (S := S128x128) hz, View.ld_unit_zero (S := S1x16384) hz, View.ld_unit_zero (S := S128x16384) hz]

end Cert.KernelIdeal.Pieces

end
-- ==== Proof.OneHot.lean ====
import Idealize.ShloMosaic.PureOps.Ideal

/-! The one nonzero term of a one-hot row.

A row of the one-hot matrix of a tile compares the 128 feature numbers `j * 128 + k` of the tile with one
32-bit word `wd`. At most one of them equals the word, so the sum of `e k` against the row is the one
entry `e (wd - j * 128)` when the word lies in the tile and zero otherwise. On the extended reals
`x * 1 = x` and `x * 0 = 0` for every `x`, the infinities included, so nothing is asked of `e`. -/

namespace Cert.Gather

/-- A natural number below `2 ^ 32` is the 32-bit word `wd` exactly when it is the word's value. -/
theorem ofNat_eq_iff_of_lt (n : Nat) (hn : n < 2 ^ 32) (wd : BitVec 32) :
    BitVec.ofNat 32 n = wd ↔ n = wd.toNat := by
  constructor
  · rintro rfl
    rw [BitVec.toNat_ofNat, Nat.mod_eq_of_lt hn]
  · intro h
    rw [h, BitVec.ofNat_toNat, BitVec.setWidth_eq]

theorem onehot_tile_sum (e : Fin 128 → EReal) (j : Nat) (hj : j < 128) (wd : BitVec 32) :
    (∑ k : Fin 128, e k * (if BitVec.ofNat 32 (j * 128 + k.val) = wd then (1 : EReal) else 0))
      = if h : j * 128 ≤ wd.toNat ∧ wd.toNat < j * 128 + 128 then e ⟨wd.toNat - j * 128, by omega⟩ else 0 := by
  have key : ∀ k : Fin 128, BitVec.ofNat 32 (j * 128 + k.val) = wd ↔ j * 128 + k.val = wd.toNat := fun k =>
    ofNat_eq_iff_of_lt _ (by have := k.isLt; omega) wd
  by_cases h : j * 128 ≤ wd.toNat ∧ wd.toNat < j * 128 + 128
  · rw [dif_pos h]
    rw [Finset.sum_eq_single (⟨wd.toNat - j * 128, by omega⟩ : Fin 128)]
    · rw [if_pos ((key _).mpr (by show j * 128 + (wd.toNat - j * 128) = wd.toNat; omega)), mul_one]
    · intro k _ hk
      rw [if_neg (fun hk' => hk (Fin.ext (by have := (key k).mp hk'; show k.val = wd.toNat - j * 128; omega))), mul_zero]
    · intro hn
      exact absurd (Finset.mem_univ _) hn
  · rw [dif_neg h]
    refine Finset.sum_eq_zero fun k _ => ?_
    rw [if_neg (fun hk' => h (by have := (key k).mp hk'; have := k.isLt; omega)), mul_zero]

end Cert.Gather
-- ==== Proof.Accumulate.lean ====
/-
  One step of the gather accumulated tile by tile.

  A row of the feature array is E : Fin 16384 → EReal, and a neuron's preference is a 32-bit word wd.  After the
  tiles 0, …, f - 1 the accumulator holds E at the word's value if that value lies in those tiles and zero
  otherwise; tile f adds the sum of its 128 entries against its one-hot row, which is E at the word's value if it
  lies in tile f and zero otherwise; so after tile f the accumulator holds E at the word's value if it lies in the
  tiles 0, …, f.  Adding zero on either side changes nothing on the extended reals, so nothing is asked of E.
-/
import proofs.«400493_j87935160418550_1_alg».proof.Proof.OneHot

namespace Cert.Gather

/-- The accumulator after the tiles below `j`: the row at the word's column if that column is below `128 j`. -/
noncomputable def partialGather (E : Fin 16384 → EReal) (j : Nat) (wd : BitVec 32) : EReal :=
  if wd.toNat < j * 128 then E ⟨wd.toNat % 16384, Nat.mod_lt _ (by decide)⟩ else 0

theorem partialGather_zero (E : Fin 16384 → EReal) (wd : BitVec 32) : partialGather E 0 wd = 0 := by
  unfold partialGather
  rw [if_neg (by omega)]

/-- One tile more. -/
theorem partialGather_step (E : Fin 16384 → EReal) (f : Nat) (hf : f < 128) (wd : BitVec 32) (x : Fin 128 → EReal)
    (hx : ∀ k : Fin 128, x k = E ⟨f * 128 + k.val, by have := k.isLt; omega⟩) :
    partialGather E f wd
        + (∑ k : Fin 128, x k * (if BitVec.ofNat 32 (f * 128 + k.val) = wd then (1 : EReal) else 0))
      = partialGather E (f + 1) wd := by
  rw [onehot_tile_sum x f hf wd]
  unfold partialGather
  by_cases h1 : wd.toNat < f * 128
  · rw [if_pos h1, dif_neg (by omega), if_pos (by omega), add_zero]
  · rw [if_neg h1]
    by_cases h2 : wd.toNat < f * 128 + 128
    · rw [dif_pos ⟨by omega, h2⟩, if_pos (by omega), zero_add, hx]
      exact congrArg E (Fin.ext (by show f * 128 + (wd.toNat - f * 128) = wd.toNat % 16384; omega))
    · rw [dif_neg (by omega), if_neg (by omega), add_zero]

/-- After all 128 tiles: the row at the word's column, when the word is a column number. -/
theorem partialGather_all (E : Fin 16384 → EReal) (wd : BitVec 32) (h : wd.toNat < 16384) :
    partialGather E 128 wd = E ⟨wd.toNat % 16384, Nat.mod_lt _ (by decide)⟩ := by
  unfold partialGather
  rw [if_pos (by omega)]

end Cert.Gather
-- ==== Proof.ModRange.lean ====
/-
  The reduced preference word is a column number.

  The truncating remainder `r` of a signed word by 16384 lies strictly between -16384 and 16384.  NumPy's
  remainder moves a negative `r` up by 16384 and keeps the others, so it lies in [0, 16384): read unsigned,
  the reduced word is below 16384.
-/
import proofs.«400493_j87935160418550_1_alg».proof.Proof.Spec
import Idealize.ShloMosaic.Lib.Affine

namespace Cert.Gather

open Idealize.ShloMosaic

/-- The truncating remainder by 16384, read signed, is strictly between -16384 and 16384. -/
theorem srem_bounds (x : BitVec 32) :
    -16384 < (x.srem 16384#32).toInt ∧ (x.srem 16384#32).toInt < 16384 := by
  have h : (16384#32 : BitVec 32).toInt = 16384 := by decide
  rw [BitVec.toInt_srem, h]
  exact ⟨Int.lt_tmod_of_pos _ (by decide), Int.tmod_lt_of_pos _ (by decide)⟩

/-- The reduced word, read unsigned, is below 16384. -/
theorem pmodWord_lt (x : BitVec 32) : (pmodWord x).toNat < 16384 := by
  unfold pmodWord
  rw [divisor_eq, IntOp.remsi_of_pos .host (show (0 : Int) < (16384#32 : BitVec 32).toInt by decide)]
  obtain ⟨h1, h2⟩ := srem_bounds x
  generalize x.srem 16384#32 = r at h1 h2
  have hz : (0#32 : BitVec 32).toInt = 0 := by decide
  have hd : IntOp.cmpi .slt (16384#32 : BitVec 32) 0#32 = 0#1 := by decide
  rw [hd]
  unfold Scalar.select
  have hcond := BitVec.toInt_eq_toNat_cond r
  by_cases hneg : r.toInt < 0
  · have hs : IntOp.cmpi .slt r 0#32 = 1#1 := IntOp.cmpi_slt.2 (by rw [hz]; exact hneg)
    have hne : IntOp.cmpi .ne r 0#32 = 1#1 := IntOp.cmpi_ne.2 (by rintro rfl; rw [hz] at hneg; exact absurd hneg (by decide))
    rw [hs, hne, if_pos (by decide)]
    have hsum : (IntOp.addi r 16384#32).toInt = r.toInt + 16384 := by
      rw [IntOp.addi, BitVec.toInt_add, show (16384#32 : BitVec 32).toInt = 16384 by decide]
      exact Int.bmod_eq_of_le (by omega) (by omega)
    have hc2 := BitVec.toInt_eq_toNat_cond (IntOp.addi r 16384#32)
    rw [hsum] at hc2
    split at hc2 <;> omega
  · have hs : IntOp.cmpi .slt r 0#32 = 0#1 := by
      rcases BitVec.eq_zero_or_eq_one (IntOp.cmpi .slt r 0#32) with h0 | h1'
      · exact h0
      · exact absurd (by have := IntOp.cmpi_slt.1 h1'; rwa [hz] at this) hneg
    rw [hs, if_neg]
    · split at hcond <;> omega
    · intro h
      exact absurd (IntOp.andi_eq_one.1 h).1 (by decide)

/-- So the column of a preference word is the reduced word itself. -/
theorem col_val (x : BitVec 32) : (col x).val = (pmodWord x).toNat :=
  Nat.mod_eq_of_lt (pmodWord_lt x)

end Cert.Gather
-- ==== Proof.KernelPayload.lean ====
import proofs.«400493_j87935160418550_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-! The kernel's arithmetic read at an index, at the ideal values.

The kernel body's four pure terms are read at row `p` of the block and neuron `q`:
the zero block; the accumulator plus the product of the feature block with the tile's one-hot matrix, a sum over
the tile's 128 features of the block's entry times one or zero; the product with the weight row; and the
row mean scaled by a tenth, subtracted, and the maximum with zero. Format changes are the identity on the
extended reals, a shape cast to the same shape is the identity, and the broadcasts of a column and of a row read
the column's and the row's entry. -/

noncomputable section

namespace Cert.KernelIdeal.Payload

open Cert.KernelIdeal Cert.KernelIdeal.Gen Idealize.ShloMosaic Idealize.ShloMosaic.ValueIdx

/-! ## Two keepdims layout readings, and the lane sum -/

section Layout
variable {α : Type}

/-- An `[a, 1]` column broadcast to `[a, b]` reads, at `(p, c)`, the column's entry at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-- The sum over the lanes of a `[128, 16384]` block, read at row `p`, is the sum of the row's 16384 entries. -/
theorem laneSum_apply (v : FVec Ideal S128x16384 .f32) (p : Fin 128) :
    multiReduction (F := Ideal) .add [1] S128 v 0x00000000#32 reduces_S128x16384_S128 (.inl rfl) rfl (ix1 p)
      = ∑ n : Fin 16384, v (ix2 p n) := by
  refine (Ideal.multiReduction_add_single v 0x00000000#32 reduces_S128x16384_S128 (.inl rfl) rfl (ix1 p)).trans ?_
  show ∑ n : Fin 16384, v (reduces_S128x16384_S128.lift (ix1 p) n) = ∑ n : Fin 16384, v (ix2 p n)
  refine Finset.sum_congr rfl fun n _ => congrArg v (funext fun a => Fin.ext ?_)
  match a with
  | ⟨0, _⟩ => rfl
  | ⟨1, _⟩ => rfl

/-! ## The one-hot entry -/

/-- The feature number of row `k` of tile `a`, as the payload's 32-bit arithmetic makes it: no wrap-around
    condition is needed, the words' sum and product being the naturals' modulo `2 ^ 32`. -/
theorem tile_row_word (a k : Nat) :
    IntOp.addi (Scalar.muli (BitVec.ofNat 32 a) 128#32) (BitVec.ofNat 32 k) = BitVec.ofNat 32 (a * 128 + k) := by
  show BitVec.ofNat 32 a * BitVec.ofNat 32 128 + BitVec.ofNat 32 k = _
  rw [BitVec.ofNat_add, BitVec.ofNat_mul]

/-- The signed value of a zero-extended compare bit, as an extended real: one where the bit is set, else zero. -/
theorem sitofp_bit (b : BitVec 1) :
    FloatOps.sitofp (F := Ideal) .f32 (b.setWidth 32) = if b = 1#1 then (1 : EReal) else 0 := by
  show (((b.setWidth 32).toInt : ℝ) : EReal) = _
  rcases BitVec.eq_zero_or_eq_one b with rfl | rfl
  · rw [if_neg (by decide), show (BitVec.setWidth 32 (0#1)).toInt = 0 by decide, Int.cast_zero, EReal.coe_zero]
  · rw [if_pos rfl, show (BitVec.setWidth 32 (1#1)).toInt = 1 by decide, Int.cast_one, EReal.coe_one]

/-- The one-hot matrix of tile `i 1`, as the payload builds it from the preference row `v7`. -/
def onehot (i : grid0.Coords) (v7 : Vec Ideal S1x16384 .i32) : FVec Ideal S128x16384 .bf16 :=
  truncf .bf16
    (sitofp .f32
      (extui 32
        (cmpi .eq
          (broadcastTo S128x16384
            (addi (broadcast S128x1 (Scalar.muli (BitVec.ofNat 32 (i 1).val) 128#32))
              (iota .tc S128x1 32 [0] iota_S128x1_d0_w32))
            broadcasts_S128x1_S128x16384)
          (broadcastTo S128x16384 (shapeCast S1x16384 v7 shapeCasts_S1x16384_S1x16384)
            broadcasts_S1x16384_S128x16384))
        natLt_1_32))
    bitsLt_bf16_f32

/-- Its entry at row `k` and neuron `q`: one where feature `(i 1) * 128 + k` is the neuron's preferred one. -/
theorem onehot_apply (i : grid0.Coords) (v7 : Vec Ideal S1x16384 .i32) (k : Fin 128) (q : Fin 16384) :
    onehot i v7 (ix2 k q)
      = if BitVec.ofNat 32 ((i 1).val * 128 + k.val) = v7 (ix2 (0 : Fin 1) q) then (1 : EReal) else 0 := by
  unfold onehot
  show FloatOps.sitofp (F := Ideal) .f32
      ((IntOp.cmpi .eq
          (broadcastTo S128x16384
            (addi (broadcast S128x1 (Scalar.muli (BitVec.ofNat 32 (i 1).val) 128#32))
              (iota .tc S128x1 32 [0] iota_S128x1_d0_w32))
            broadcasts_S128x1_S128x16384 (ix2 k q))
          (broadcastTo S128x16384 (shapeCast S1x16384 v7 shapeCasts_S1x16384_S1x16384)
            broadcasts_S1x16384_S128x16384 (ix2 k q))).setWidth 32) = _
  rw [sitofp_bit, broadcastTo_a1_ab_apply, broadcastTo_1b_ab_apply, shapeCast_self]
  show (if IntOp.cmpi .eq
        (IntOp.addi (Scalar.muli (BitVec.ofNat 32 (i 1).val) 128#32)
          (iota .tc S128x1 32 [0] iota_S128x1_d0_w32 (ix2 k (0 : Fin 1))))
        (v7 (ix2 (0 : Fin 1) q)) = 1#1 then (1 : EReal) else 0) = _
  rw [iota_single_apply]
  show (if IntOp.cmpi .eq (IntOp.addi (Scalar.muli (BitVec.ofNat 32 (i 1).val) 128#32) (BitVec.ofNat 32 k.val))
        (v7 (ix2 (0 : Fin 1) q)) = 1#1 then (1 : EReal) else 0) = _
  rw [tile_row_word]
  exact if_congr IntOp.cmpi_eq rfl rfl

/-! ## The matmul read at an index

The contraction of the `[128, 128]` block with the `[128, 16384]` matrix runs over the block's columns and the
matrix's rows. Its operand indices at output index `(p, q)` and contraction index `k` are `(p, k)` and `(k, q)`;
the four coordinate facts are stated one per operand axis. -/

theorem lhs_mm_0 (j : S128x16384.Idx) (c : dot_S128x128_S128x16384_S128x16384_1_0_0_1_n_n.contr.Idx) :
    (dot_S128x128_S128x16384_S128x16384_1_0_0_1_n_n.lhsIdx j c 0).val = (j 0).val := by
  unfold DotDims.lhsIdx
  rw [dif_neg (show ¬(0 : Fin S128x128.rank) ∈ dot_S128x128_S128x16384_S128x16384_1_0_0_1_n_n.lhsBatch by decide),
    dif_pos (show (0 : Fin S128x128.rank) ∈ dot_S128x128_S128x16384_S128x16384_1_0_0_1_n_n.lhsNonContracting by decide)]
  rfl

theorem lhs_mm_1 (j : S128x16384.Idx) (c : dot_S128x128_S128x16384_S128x16384_1_0_0_1_n_n.contr.Idx) :
    (dot_S128x128_S128x16384_S128x16384_1_0_0_1_n_n.lhsIdx j c 1).val = (c ⟨0, by decide⟩).val :=
  dot_S128x128_S128x16384_S128x16384_1_0_0_1_n_n.lhsIdx_val_of_single rfl j c

theorem rhs_mm_0 (j : S128x16384.Idx) (c : dot_S128x128_S128x16384_S128x16384_1_0_0_1_n_n.contr.Idx) :
    (dot_S128x128_S128x16384_S128x16384_1_0_0_1_n_n.rhsIdx j c 0).val = (c ⟨0, by decide⟩).val :=
  dot_S128x128_S128x16384_S128x16384_1_0_0_1_n_n.rhsIdx_val_of_single rfl j c

theorem rhs_mm_1 (j : S128x16384.Idx) (c : dot_S128x128_S128x16384_S128x16384_1_0_0_1_n_n.contr.Idx) :
    (dot_S128x128_S128x16384_S128x16384_1_0_0_1_n_n.rhsIdx j c 1).val = (j 1).val := by
  unfold DotDims.rhsIdx
  rw [dif_neg (show ¬(1 : Fin S128x16384.rank) ∈ dot_S128x128_S128x16384_S128x16384_1_0_0_1_n_n.rhsBatch by decide),
    dif_pos (show (1 : Fin S128x16384.rank) ∈ dot_S128x128_S128x16384_S128x16384_1_0_0_1_n_n.rhsNonContracting by decide)]
  rfl

/-- The matmul into the zero accumulator, read at `(p, q)`: the sum over the 128 contracted coordinates of the
    products of the left operand's row `p` and the right operand's column `q`. -/
theorem matmul_zero_apply (lhs : FVec Ideal S128x128 .bf16) (rhs : FVec Ideal S128x16384 .bf16)
    (p : Fin 128) (q : Fin 16384) :
    matmul dot_S128x128_S128x16384_S128x16384_1_0_0_1_n_n none lhs rhs (constant S128x16384 .f32 0x00000000#32) (ix2 p q)
      = ∑ k : Fin 128, lhs (ix2 p k) * rhs (ix2 k q) := by
  simp only [matmul]
  rw [Ideal.matmul_constant_zero_apply,
    ← Equiv.sum_comp (contrEquiv1 dot_S128x128_S128x16384_S128x16384_1_0_0_1_n_n 128 rfl rfl).symm]
  refine Finset.sum_congr rfl fun k _ => ?_
  have hk := contrEquiv1_symm_val dot_S128x128_S128x16384_S128x16384_1_0_0_1_n_n 128 rfl rfl k
  have el : dot_S128x128_S128x16384_S128x16384_1_0_0_1_n_n.lhsIdx (ix2 p q)
      ((contrEquiv1 dot_S128x128_S128x16384_S128x16384_1_0_0_1_n_n 128 rfl rfl).symm k) = ix2 p k :=
    funext fun a => Fin.ext (by
      match a with
      | ⟨0, _⟩ => exact lhs_mm_0 _ _
      | ⟨1, _⟩ => exact (lhs_mm_1 _ _).trans hk)
  have er : dot_S128x128_S128x16384_S128x16384_1_0_0_1_n_n.rhsIdx (ix2 p q)
      ((contrEquiv1 dot_S128x128_S128x16384_S128x16384_1_0_0_1_n_n 128 rfl rfl).symm k) = ix2 k q :=
    funext fun a => Fin.ext (by
      match a with
      | ⟨0, _⟩ => exact (rhs_mm_0 _ _).trans hk
      | ⟨1, _⟩ => exact rhs_mm_1 _ _)
  rw [el, er]

/-! ## The four payloads at an index -/

theorem pay1_apply (p : Fin 128) (q : Fin 16384) : k0_pay1 (F := Ideal) (ix2 p q) = 0 := by
  unfold k0_pay1
  show Ideal.ofBits .f32 0x00000000#32 = 0
  exact Ideal.ofBits_zero_f32

theorem pay2_apply (i : grid0.Coords) (v7 : Vec Ideal S1x16384 .i32) (v15 : Vec Ideal S128x128 .f32)
    (v17 : Vec Ideal S128x16384 .f32) (p : Fin 128) (q : Fin 16384) :
    k0_pay2 (F := Ideal) i v7 v15 v17 (ix2 p q)
      = v17 (ix2 p q) + ∑ k : Fin 128, v15 (ix2 p k) * (if BitVec.ofNat 32 ((i 1).val * 128 + k.val) = v7 (ix2 (0 : Fin 1) q) then (1 : EReal) else 0) := by
  unfold k0_pay2
  show shapeCast S128x16384 v17 shapeCasts_S128x16384_S128x16384 (ix2 p q)
      + matmul dot_S128x128_S128x16384_S128x16384_1_0_0_1_n_n none (truncf .bf16 v15 bitsLt_bf16_f32) (onehot i v7)
          (constant S128x16384 .f32 0x00000000#32) (ix2 p q) = _
  rw [shapeCast_self, matmul_zero_apply]
  refine congrArg (v17 (ix2 p q) + ·) (Finset.sum_congr rfl fun k _ => ?_)
  rw [onehot_apply]
  rfl

theorem pay3_apply (v25 : Vec Ideal S128x16384 .f32) (v27 : Vec Ideal S1x16384 .f32) (p : Fin 128) (q : Fin 16384) :
    k0_pay3 (F := Ideal) v25 v27 (ix2 p q) = v25 (ix2 p q) * v27 (ix2 (0 : Fin 1) q) := by
  unfold k0_pay3
  show shapeCast S128x16384 v25 shapeCasts_S128x16384_S128x16384 (ix2 p q)
      * broadcastTo S128x16384 (shapeCast S1x16384 v27 shapeCasts_S1x16384_S1x16384) broadcasts_S1x16384_S128x16384 (ix2 p q) = _
  rw [shapeCast_self, shapeCast_self, broadcastTo_1b_ab_apply]

theorem pay4_apply (v32 v38 : Vec Ideal S128x16384 .f32) (p : Fin 128) (q : Fin 16384) :
    k0_pay4 (F := Ideal) v32 v38 (ix2 p q)
      = max (v38 (ix2 p q) - (Ideal.ofBits .f32 0x3DCCCCCD#32 : EReal) * Ideal.div (∑ n : Fin 16384, v32 (ix2 p n)) (Ideal.ofBits .f32 0x46800000#32)) (Ideal.ofBits .f32 0x00000000#32) := by
  unfold k0_pay4
  show max (shapeCast S128x16384 v38 shapeCasts_S128x16384_S128x16384 (ix2 p q)
        - broadcastTo S128x16384 _ broadcasts_S128x1_S128x16384 (ix2 p q)) (Ideal.ofBits .f32 0x00000000#32) = _
  rw [shapeCast_self, broadcastTo_a1_ab_apply]
  show max (v38 (ix2 p q) - (Ideal.ofBits .f32 0x3DCCCCCD#32 * Ideal.div (shapeCast S128x1 _ shapeCasts_S128_S128x1 (ix2 p (0 : Fin 1))) (Ideal.ofBits .f32 0x46800000#32))) _ = _
  rw [shapeCast_a_a1_apply, shapeCast_self, laneSum_apply]

end Cert.KernelIdeal.Payload

end
-- ==== Proof.KernelValue.lean ====
/-
  The kernel's result array, index by index.

  Point t of the grid is row block B = t / 128 at feature tile f = t % 128, and the output block of a row block
  stays in place over its 128 tiles.  By induction on the point, after tile f < 127 the block holds at (p, q) the
  entry of row 128 B + p at neuron q's column if that column lies in the tiles 0 … f, and zero otherwise: a tile
  adds the sum of its 128 entries of the row against its one-hot row for the neuron, which is the one entry at the
  neuron's column when the column is in the tile.  The preference row holds words below 16384, so after tile 127
  the accumulated entry is the row at the neuron's column; the last tile then scales it by the neuron's weight,
  subtracts a tenth of the row's mean of the scaled entries and rectifies, which is the result function at
  (128 B + p, q).  Only the last tile's point of a row block writes the block back, at rows 128 B … 128 B + 127;
  these 32 blocks cover the array, so the array ends at the result function.
-/
import proofs.«400493_j87935160418550_1_alg».proof.Proof.KernelBlocks
import proofs.«400493_j87935160418550_1_alg».proof.Proof.KernelPieces
import proofs.«400493_j87935160418550_1_alg».proof.Proof.Accumulate
import proofs.«400493_j87935160418550_1_alg».proof.Proof.ModRange
import proofs.«400493_j87935160418550_1_alg».proof.Proof.KernelPayload

noncomputable section

namespace Cert.KernelIdeal.KValue

open Cert.KernelIdeal Cert.KernelIdeal.Gen Idealize.ShloMosaic Idealize.ShloMosaic.TcCoe Idealize.SL.Sem Idealize.ShloMosaic.ValueIdx
open Cert.KernelIdeal.Blocks
open Idealize.ShloMosaic.Pipeline (Dat)

variable (m : (ℓ : Loc nD τ sig) → Buf (Elt Ideal) ℓ) (ρ : Dev nD → PrngReg)

/-- The printed index maps over the grid: point t is row block t / 128 at feature tile t % 128. -/
theorem idx_facts : ∀ t : Fin cfg0.N, win0_0.index t (0 : Fin 2) = t.val / 128 ∧ win0_0.index t (1 : Fin 2) = t.val % 128
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val / 128 ∧ win0_3.index t (1 : Fin 2) = 0
    ∧ (grid0.coords t 1).val = t.val % 128 :=
  (by decide +kernel : ∀ t : Fin grid0.N, _)

/-- The blocks of the three input windows at a point, at their literal types. -/
abbrev xblk (c : Dev nD) (t : Fin cfg0.N) : Vec Ideal S128x128 .f32 := iblk m c 0 t
abbrev pblk (c : Dev nD) (t : Fin cfg0.N) : Vec Ideal S1x16384 .i32 := iblk m c 1 t
abbrev wblk (c : Dev nD) (t : Fin cfg0.N) : Vec Ideal S1x16384 .f32 := iblk m c 2 t

/-- Row p of row block B, as a row number of the feature array. -/
def rowNo (B : Nat) (p : Fin 128) : Fin 4096 := ⟨(128 * B + p.val) % 4096, Nat.mod_lt _ (by decide)⟩

/-- A row of the feature array, as the region finds it, as a function of the column. -/
abbrev rowOf (c : Dev nD) (r : Fin 4096) : Fin 16384 → EReal := fun col => earr m c (ix2 r col)

/-- The preference word of neuron q, as the kernel reads it. -/
abbrev wd (c : Dev nD) (q : Fin 16384) : BitVec 32 := prow m c (ix2 (0 : Fin 1) q)

/-- The feature block at point t: row p of row block t / 128, column k of tile t % 128. -/
theorem xblk_apply (c : Dev nD) (t : Fin cfg0.N) (p k : Fin 128) :
    xblk m c t (ix2 p k) = rowOf m c (rowNo (t.val / 128) p) ⟨(t.val % 128) * 128 + k.val, by have := k.isLt; omega⟩ := by
  obtain ⟨e0, e1, -⟩ := idx_facts t
  have hN : t.val < 4096 := lt_of_lt_of_eq t.isLt (show cfg0.N = 4096 from N_0)
  show V m c main_arg0 (((cfg0.win 0).blk t).view.emb (ix2 p k)) = V m c main_arg0 _
  refine congrArg (V m c main_arg0) ?_
  funext a; apply Fin.ext
  match a with
  | ⟨0, _⟩ => show win0_0.index t (0 : Fin 2) * 128 + 1 * p.val = (128 * (t.val / 128) + p.val) % 4096; have := p.isLt; omega
  | ⟨1, _⟩ => show win0_0.index t (1 : Fin 2) * 128 + 1 * k.val = (t.val % 128) * 128 + k.val; omega

/-- The preference block at every point is the preference row. -/
theorem pblk_apply (c : Dev nD) (t : Fin cfg0.N) (q : Fin 16384) : pblk m c t (ix2 (0 : Fin 1) q) = prow m c (ix2 (0 : Fin 1) q) := by
  obtain ⟨-, -, e2, e3, -⟩ := idx_facts t
  show V m c main_v1 (((cfg0.win 1).blk t).view.emb (ix2 (0 : Fin 1) q)) = V m c main_v1 _
  refine congrArg (V m c main_v1) ?_
  funext a; apply Fin.ext
  match a with
  | ⟨0, _⟩ => show win0_1.index t (0 : Fin 2) * 1 + 1 * 0 = 0; omega
  | ⟨1, _⟩ => show win0_1.index t (1 : Fin 2) * 16384 + 1 * q.val = q.val; omega

/-- The weight block at every point is the weight row. -/
theorem wblk_apply (c : Dev nD) (t : Fin cfg0.N) (q : Fin 16384) : wblk m c t (ix2 (0 : Fin 1) q) = wrow m c (ix2 (0 : Fin 1) q) := by
  obtain ⟨-, -, -, -, e4, e5, -⟩ := idx_facts t
  show V m c main_v2 (((cfg0.win 2).blk t).view.emb (ix2 (0 : Fin 1) q)) = V m c main_v2 _
  refine congrArg (V m c main_v2) ?_
  funext a; apply Fin.ext
  match a with
  | ⟨0, _⟩ => show win0_2.index t (0 : Fin 2) * 1 + 1 * 0 = 0; omega
  | ⟨1, _⟩ => show win0_2.index t (1 : Fin 2) * 16384 + 1 * q.val = q.val; omega

/-- The output block after a point, at its literal type. -/
abbrev accAt (c : Dev nD) (n : ℕ) (h : n < cfg0.N) : Vec Ideal S128x16384 .f32 := outsAt0 m c n h

/-- What one tile adds to the accumulator at (p, q), given what the accumulator held: the next partial gather. -/
theorem tile_step (c : Dev nD) (t : Fin cfg0.N) (xo : Vec Ideal S128x16384 .f32) (p : Fin 128) (q : Fin 16384)
    (hxo : xo (ix2 p q) = Cert.Gather.partialGather (rowOf m c (rowNo (t.val / 128) p)) (t.val % 128) (wd m c q)) :
    k0_pay2 (F := Ideal) (grid0.coords t) (pblk m c t) (xblk m c t) xo (ix2 p q)
      = Cert.Gather.partialGather (rowOf m c (rowNo (t.val / 128) p)) (t.val % 128 + 1) (wd m c q) := by
  obtain ⟨-, -, -, -, -, -, -, -, e8⟩ := idx_facts t
  refine (Payload.pay2_apply (grid0.coords t) (pblk m c t) (xblk m c t) xo p q).trans ?_
  rw [hxo, pblk_apply, e8]
  exact Cert.Gather.partialGather_step (rowOf m c (rowNo (t.val / 128) p)) (t.val % 128) (Nat.mod_lt _ (by decide)) (wd m c q)
    (fun k => xblk m c t (ix2 p k)) (fun k => xblk_apply m c t p k)

/-- THE ACCUMULATION: after the point of row block B at tile f < 127 the output block holds, at (p, q), row
    128 B + p of the feature array at neuron q's column if that column lies in the tiles 0 … f, and zero otherwise. -/
theorem acc_partial (c : Dev nD) : ∀ (n : ℕ) (h : n < cfg0.N), n % 128 ≠ 127 → ∀ (p : Fin 128) (q : Fin 16384),
    accAt m c n h (ix2 p q) = Cert.Gather.partialGather (rowOf m c (rowNo (n / 128) p)) (n % 128 + 1) (wd m c q) := by
  intro n
  induction n with
  | zero =>
    intro h _ p q
    have hA := outsAt0_A m c ⟨0, h⟩ rfl (by show ¬ 0 % 128 = 127; decide)
    show outsAt0 m c (⟨0, h⟩ : Fin cfg0.N).val (⟨0, h⟩ : Fin cfg0.N).isLt (ix2 p q) = _
    rw [hA]
    refine (congrFun (Pieces.out_A (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) _ _ (xblk m c ⟨0, h⟩) (pblk m c ⟨0, h⟩) (wblk m c ⟨0, h⟩)) (ix2 p q)).trans ?_
    exact tile_step m c ⟨0, h⟩ (k0_pay1 (F := Ideal)) p q ((Payload.pay1_apply p q).trans (Cert.Gather.partialGather_zero _ _).symm)
  | succ n ih =>
    intro h h1 p q
    by_cases h0 : (n + 1) % 128 = 0
    · have hA := outsAt0_A m c ⟨n + 1, h⟩ h0 h1
      show outsAt0 m c (⟨n + 1, h⟩ : Fin cfg0.N).val (⟨n + 1, h⟩ : Fin cfg0.N).isLt (ix2 p q) = _
      rw [hA]
      refine (congrFun (Pieces.out_A (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) _ _ (xblk m c ⟨n + 1, h⟩) (pblk m c ⟨n + 1, h⟩) (wblk m c ⟨n + 1, h⟩)) (ix2 p q)).trans ?_
      refine tile_step m c ⟨n + 1, h⟩ (k0_pay1 (F := Ideal)) p q ((Payload.pay1_apply p q).trans ?_)
      show (0 : EReal) = Cert.Gather.partialGather _ ((n + 1) % 128) _
      rw [h0, Cert.Gather.partialGather_zero]
    · have hB := outsAt0_B m c ⟨n + 1, h⟩ h0 h1
      show outsAt0 m c (⟨n + 1, h⟩ : Fin cfg0.N).val (⟨n + 1, h⟩ : Fin cfg0.N).isLt (ix2 p q) = _
      rw [hB]
      refine (congrFun (Pieces.out_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) _ _ (xblk m c ⟨n + 1, h⟩) (pblk m c ⟨n + 1, h⟩) (wblk m c ⟨n + 1, h⟩) (accAt m c n (Nat.lt_of_succ_lt h))) (ix2 p q)).trans ?_
      refine tile_step m c ⟨n + 1, h⟩ (accAt m c n (Nat.lt_of_succ_lt h)) p q ?_
      rw [ih (Nat.lt_of_succ_lt h) (by omega) p q]
      show Cert.Gather.partialGather (rowOf m c (rowNo (n / 128) p)) (n % 128 + 1) _ = Cert.Gather.partialGather (rowOf m c (rowNo ((n + 1) / 128) p)) ((n + 1) % 128) _
      rw [show (n + 1) / 128 = n / 128 by omega, show (n + 1) % 128 = n % 128 + 1 by omega]

/-- What the accumulator held before a point that is not a first tile. -/
theorem acc_prev (c : Dev nD) (t : Fin cfg0.N) (h0 : ¬t.val % 128 = 0) (p : Fin 128) (q : Fin 16384) :
    accAt m c (t.val - 1) (Nat.lt_of_le_of_lt (Nat.sub_le _ _) t.isLt) (ix2 p q)
      = Cert.Gather.partialGather (rowOf m c (rowNo (t.val / 128) p)) (t.val % 128) (wd m c q) := by
  rw [acc_partial m c (t.val - 1) _ (by omega) p q]
  rw [show (t.val - 1) / 128 = t.val / 128 by omega, show (t.val - 1) % 128 + 1 = t.val % 128 by omega]

/-- At a last tile the accumulated block scaled by the weight row is, at (p, n), neuron n's activity on the row. -/
theorem scaled_apply (c : Dev nD) (t : Fin cfg0.N) (h0 : ¬t.val % 128 = 0) (h1 : t.val % 128 = 127) (p : Fin 128) (n : Fin 16384) :
    k0_pay3 (F := Ideal) (k0_pay2 (grid0.coords t) (pblk m c t) (xblk m c t) (accAt m c (t.val - 1) (Nat.lt_of_le_of_lt (Nat.sub_le _ _) t.isLt))) (wblk m c t) (ix2 p n)
      = Cert.Gather.act (enc m c) (wts m c) (prefs m c) (rowNo (t.val / 128) p) n := by
  refine (Payload.pay3_apply _ _ p n).trans ?_
  rw [tile_step m c t _ p n (acc_prev m c t h0 p n), wblk_apply, wrow_apply, h1]
  have hw : wd m c n = Cert.Gather.pmodWord (prefs m c (ix1 n)) := prow_apply m c n
  rw [hw, Cert.Gather.partialGather_all _ _ (Cert.Gather.pmodWord_lt _)]
  show earr m c (ix2 (rowNo (t.val / 128) p) (Cert.Gather.col (prefs m c (ix1 n)))) * _ = _
  rw [earr_eq]
  rfl

/-- THE LAST TILE: after it the output block holds the result at its rows. -/
theorem last_apply (c : Dev nD) (t : Fin cfg0.N) (h0 : ¬t.val % 128 = 0) (h1 : t.val % 128 = 127) (p : Fin 128) (q : Fin 16384) :
    accAt m c t.val t.isLt (ix2 p q) = Cert.Gather.Gat (enc m c) (wts m c) (prefs m c) (rowNo (t.val / 128) p) q := by
  have hC := outsAt0_C m c t h0 h1
  show outsAt0 m c t.val t.isLt (ix2 p q) = _
  rw [hC]
  refine (congrFun (Pieces.out_C (F := Ideal) c (grid0.coords t) (ms0_0 t) (hs0_0 t) (ms0_1 t) (hs0_1 t) (ms0_2 t) (hs0_2 t) (ms0_3 t) (hs0_3 t) _ _ (xblk m c t) (pblk m c t) (wblk m c t) (accAt m c (t.val - 1) (Nat.lt_of_le_of_lt (Nat.sub_le _ _) t.isLt))) (ix2 p q)).trans ?_
  refine (Payload.pay4_apply _ _ p q).trans ?_
  unfold Cert.Gather.Gat
  simp only [scaled_apply m c t h0 h1]

/-- WHAT A WRITE-BACK WRITES: the block of the result array at the point's rows. -/
theorem flushed_eq (c : Dev nD) (t : Fin cfg0.N) (hf : (cfg0.win 3).flush t = true) :
    (dats m 0 c).flushed 3 t = ((cfg0.win 3).blk t).view.read (Elt Ideal) (Cert.Gather.G (enc m c) (wts m c) (prefs m c)) := by
  have h1 : t.val % 128 = 127 := (flush0_3 t).mp hf
  have h0 : ¬t.val % 128 = 0 := by omega
  obtain ⟨-, -, -, -, -, -, e6, e7, -⟩ := idx_facts t
  have hN : t.val < 4096 := lt_of_lt_of_eq t.isLt (show cfg0.N = 4096 from N_0)
  rw [Value.flushed3]
  funext j
  obtain ⟨p, q, rfl⟩ : ∃ (p : Fin 128) (q : Fin 16384), j = ix2 p q := ⟨j 0, j 1, eq_ix2 j⟩
  show accAt m c t.val t.isLt (ix2 p q) = Cert.Gather.G (enc m c) (wts m c) (prefs m c) (((cfg0.win 3).blk t).view.emb (ix2 p q))
  rw [last_apply m c t h0 h1 p q]
  have he : ((cfg0.win 3).blk t).view.emb (ix2 p q) = ix2 (rowNo (t.val / 128) p) q := by
    funext a; apply Fin.ext
    match a with
    | ⟨0, _⟩ => show win0_3.index t (0 : Fin 2) * 128 + 1 * p.val = (128 * (t.val / 128) + p.val) % 4096; have := p.isLt; omega
    | ⟨1, _⟩ => show win0_3.index t (1 : Fin 2) * 16384 + 1 * q.val = q.val; omega
  rw [he]
  rfl

/-- An index of the array is in point t's block iff each coordinate is in the block's range on its axis. -/
theorem mem_blk (t : Fin cfg0.N) (i : S4096x16384.Idx) :
    i ∈ ((cfg0.win 3).blk t).view.set ↔ ∀ a : Fin 2, win0_3.index t a * S128x16384.size a ≤ (i a).val ∧ (i a).val < win0_3.index t a * S128x16384.size a + S128x16384.size a := by
  show i ∈ ((View.whole main_v3).slice (win0_3.rect t)).set ↔ _
  rw [View.set_slice_whole, Rect.mem_set_unit]
  exact Iff.rfl

/-- THE RESULT ARRAY after the run: row r is written back by the last tile's point of its row block. -/
theorem final (c : Dev nD) : (dats m 0 c).arrAt 3 cfg0.N = Cert.Gather.G (enc m c) (wts m c) (prefs m c) :=
  (dats m 0 c).arrAt_eq_of_cover 3 _ (flushed_eq m c) fun i => by
    have hi0 : (i 0).val < 4096 := (i 0).isLt
    have hi1 : (i 1).val < 16384 := (i 1).isLt
    have hN : cfg0.N = 4096 := N_0
    refine ⟨⟨(i 0).val / 128 * 128 + 127, by omega⟩, (flush0_3 _).mpr (by show ((i 0).val / 128 * 128 + 127) % 128 = 127; omega), ?_⟩
    obtain ⟨-, -, -, -, -, -, e6, e7, -⟩ := idx_facts ⟨(i 0).val / 128 * 128 + 127, by omega⟩
    rw [mem_blk]
    intro a
    match a with
    | ⟨0, _⟩ =>
      show win0_3.index _ (0 : Fin 2) * 128 ≤ (i 0).val ∧ (i 0).val < win0_3.index _ (0 : Fin 2) * 128 + 128
      rw [e6]; dsimp only; omega
    | ⟨1, _⟩ =>
      show win0_3.index _ (1 : Fin 2) * 16384 ≤ (i 1).val ∧ (i 1).val < win0_3.index _ (1 : Fin 2) * 16384 + 16384
      rw [e7]; omega

/-- THE RUN, READ: the result array at the result function of the argument arrays, the arguments unchanged. -/
theorem run : θ_run (defs (F := Ideal)) (onTc (τ := τ) (main (F := Ideal))) ⟨m, fun _ => 0, ρ⟩ fun r => ∀ c : Dev nD,
      r.2.mem ((c : Thread nD τ).loc main_v3) = Cert.Gather.G (enc m c) (wts m c) (prefs m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.KValue

end
-- ==== Proof.RefRun.lean ====
/-
  The reference program's run, read back.

  @main calls two functions, the remainder of the preference words by 16384 and the gather of the preferred
  columns, each of which calls a select of its own; every call executes the callee's operations on the caller's
  buffers, so the program is one straight line of 62 operations: the constant 16384, the remainder's 21, the
  gather's 23, and @main's own 17 (the weights broadcast, the product, the row sum, the mean, its tenth, the
  difference and the rectification).  Listed in order, the line's run leaves every buffer at the fold of the
  operations' results over what the launch dealt it.
-/
import proofs.«400493_j87935160418550_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's 62 operations in order, each function's operations in the place of its call, over the call's buffers:
    the constant 16384; the remainder's 21 (its select the fifth of them); the gather's 23 (its select the
    seventh); @main's own 17. -/
abbrev ops : List (HloOp τ sig (Elt F)) :=
  [ nullary main_c (constantI S_ 32 16384#32),
    TRef.unary (.of main_c : TRef sig ⟨S_, .i32⟩) (.of main_call0_v0 : TRef sig ⟨S_, .i32⟩) id,
    TRef.nullary (.of main_call0_c : TRef sig ⟨S_, .i32⟩) (constantI S_ 32 0#32),
    TRef.binary (.of main_call0_v0 : TRef sig ⟨S_, .i32⟩) (.of main_call0_c : TRef sig ⟨S_, .i32⟩) (.of main_call0_v1 : TRef sig ⟨S_, .i1⟩) (cmpi .eq),
    TRef.nullary (.of main_call0_c_0 : TRef sig ⟨S_, .i32⟩) (constantI S_ 32 1#32),
    TRef.ternary (.of main_call0_v1 : TRef sig ⟨S_, .i1⟩) (.of main_call0_c_0 : TRef sig ⟨S_, .i32⟩) (.of main_call0_v0 : TRef sig ⟨S_, .i32⟩) (.of main_call0_v2 : TRef sig ⟨S_, .i32⟩) select,
    TRef.unary main_call0_call0.v0 (.of main_call0_v3 : TRef sig ⟨S16384, .i32⟩) (broadcastInDim S16384 ![] bcast_S_S16384),
    TRef.binary (.of main_arg2 : TRef sig ⟨S16384, .i32⟩) (.of main_call0_v3 : TRef sig ⟨S16384, .i32⟩) (.of main_call0_v4 : TRef sig ⟨S16384, .i32⟩) Host.remsi,
    TRef.nullary (.of main_call0_c_1 : TRef sig ⟨S_, .i32⟩) (constantI S_ 32 0#32),
    TRef.unary (.of main_call0_c_1 : TRef sig ⟨S_, .i32⟩) (.of main_call0_v5 : TRef sig ⟨S16384, .i32⟩) (broadcastInDim S16384 ![] bcast_S_S16384),
    TRef.binary (.of main_call0_v4 : TRef sig ⟨S16384, .i32⟩) (.of main_call0_v5 : TRef sig ⟨S16384, .i32⟩) (.of main_call0_v6 : TRef sig ⟨S16384, .i1⟩) (cmpi .ne),
    TRef.nullary (.of main_call0_c_2 : TRef sig ⟨S_, .i32⟩) (constantI S_ 32 0#32),
    TRef.unary (.of main_call0_c_2 : TRef sig ⟨S_, .i32⟩) (.of main_call0_v7 : TRef sig ⟨S16384, .i32⟩) (broadcastInDim S16384 ![] bcast_S_S16384),
    TRef.binary (.of main_call0_v4 : TRef sig ⟨S16384, .i32⟩) (.of main_call0_v7 : TRef sig ⟨S16384, .i32⟩) (.of main_call0_v8 : TRef sig ⟨S16384, .i1⟩) (cmpi .slt),
    TRef.nullary (.of main_call0_c_3 : TRef sig ⟨S_, .i32⟩) (constantI S_ 32 0#32),
    TRef.binary main_call0_call0.v0 (.of main_call0_c_3 : TRef sig ⟨S_, .i32⟩) (.of main_call0_v9 : TRef sig ⟨S_, .i1⟩) (cmpi .slt),
    TRef.unary (.of main_call0_v9 : TRef sig ⟨S_, .i1⟩) (.of main_call0_v10 : TRef sig ⟨S16384, .i1⟩) (broadcastInDim S16384 ![] bcast_S_S16384),
    TRef.binary (.of main_call0_v8 : TRef sig ⟨S16384, .i1⟩) (.of main_call0_v10 : TRef sig ⟨S16384, .i1⟩) (.of main_call0_v11 : TRef sig ⟨S16384, .i1⟩) (cmpi .ne),
    TRef.binary (.of main_call0_v11 : TRef sig ⟨S16384, .i1⟩) (.of main_call0_v6 : TRef sig ⟨S16384, .i1⟩) (.of main_call0_v12 : TRef sig ⟨S16384, .i1⟩) andi,
    TRef.unary main_call0_call0.v0 (.of main_call0_v13 : TRef sig ⟨S16384, .i32⟩) (broadcastInDim S16384 ![] bcast_S_S16384),
    TRef.binary (.of main_call0_v4 : TRef sig ⟨S16384, .i32⟩) (.of main_call0_v13 : TRef sig ⟨S16384, .i32⟩) (.of main_call0_v14 : TRef sig ⟨S16384, .i32⟩) addi,
    TRef.ternary (.of main_call0_v12 : TRef sig ⟨S16384, .i1⟩) (.of main_call0_v14 : TRef sig ⟨S16384, .i32⟩) (.of main_call0_v4 : TRef sig ⟨S16384, .i32⟩) (.of main_v0 : TRef sig ⟨S16384, .i32⟩) select,
    TRef.nullary (.of main_call1_c : TRef sig ⟨S_, .i32⟩) (constantI S_ 32 0#32),
    TRef.unary (.of main_call1_c : TRef sig ⟨S_, .i32⟩) (.of main_call1_v0 : TRef sig ⟨S16384, .i32⟩) (broadcastInDim S16384 ![] bcast_S_S16384),
    TRef.binary (.of main_v0 : TRef sig ⟨S16384, .i32⟩) (.of main_call1_v0 : TRef sig ⟨S16384, .i32⟩) (.of main_call1_v1 : TRef sig ⟨S16384, .i1⟩) (cmpi .slt),
    TRef.nullary (.of main_call1_c_0 : TRef sig ⟨S_, .i32⟩) (constantI S_ 32 16384#32),
    TRef.unary (.of main_call1_c_0 : TRef sig ⟨S_, .i32⟩) (.of main_call1_v2 : TRef sig ⟨S16384, .i32⟩) (broadcastInDim S16384 ![] bcast_S_S16384),
    TRef.binary (.of main_v0 : TRef sig ⟨S16384, .i32⟩) (.of main_call1_v2 : TRef sig ⟨S16384, .i32⟩) (.of main_call1_v3 : TRef sig ⟨S16384, .i32⟩) addi,
    TRef.ternary (.of main_call1_v1 : TRef sig ⟨S16384, .i1⟩) (.of main_call1_v3 : TRef sig ⟨S16384, .i32⟩) (.of main_v0 : TRef sig ⟨S16384, .i32⟩) (.of main_call1_v4 : TRef sig ⟨S16384, .i32⟩) select,
    TRef.unary main_call1_call0.v0 (.of main_call1_v5 : TRef sig ⟨S16384x1, .i32⟩) (broadcastInDim S16384x1 ![0] bcast_S16384_S16384x1_0),
    TRef.nullary (.of main_call1_c_1 : TRef sig ⟨S1, .i32⟩) (constantI S1 32 16383#32),
    TRef.nullary (.of main_call1_c_2 : TRef sig ⟨S_, .i32⟩) (constantI S_ 32 0#32),
    TRef.unary (.of main_call1_c_2 : TRef sig ⟨S_, .i32⟩) (.of main_call1_v6 : TRef sig ⟨S16384x1, .i32⟩) (broadcastInDim S16384x1 ![] bcast_S_S16384x1),
    TRef.binary (.of main_call1_v5 : TRef sig ⟨S16384x1, .i32⟩) (.of main_call1_v6 : TRef sig ⟨S16384x1, .i32⟩) (.of main_call1_v7 : TRef sig ⟨S16384x1, .i1⟩) (cmpi .sge),
    TRef.unary (.of main_call1_c_1 : TRef sig ⟨S1, .i32⟩) (.of main_call1_v8 : TRef sig ⟨S1x1, .i32⟩) (broadcastInDim S1x1 ![1] bcast_S1_S1x1_1),
    TRef.unary (.of main_call1_v8 : TRef sig ⟨S1x1, .i32⟩) (.of main_call1_v9 : TRef sig ⟨S16384x1, .i32⟩) (broadcastInDim S16384x1 ![0, 1] bcast_S1x1_S16384x1_0_1),
    TRef.binary (.of main_call1_v5 : TRef sig ⟨S16384x1, .i32⟩) (.of main_call1_v9 : TRef sig ⟨S16384x1, .i32⟩) (.of main_call1_v10 : TRef sig ⟨S16384x1, .i1⟩) (cmpi .sle),
    TRef.binary (.of main_call1_v7 : TRef sig ⟨S16384x1, .i1⟩) (.of main_call1_v10 : TRef sig ⟨S16384x1, .i1⟩) (.of main_call1_v11 : TRef sig ⟨S16384x1, .i1⟩) andi,
    TRef.nullary (.of main_call1_c_3 : TRef sig ⟨S_, .i1⟩) (constantI S_ 1 1#1),
    TRef.binary (.of main_call1_v11 : TRef sig ⟨S16384x1, .i1⟩) (.of main_call1_c_3 : TRef sig ⟨S_, .i1⟩) (.of main_call1_v12 : TRef sig ⟨S16384, .i1⟩) (fun x v => Host.reduce IntOp.andi x v reducesTo_S16384x1_S16384_d1 h_S_),
    TRef.binary (.of main_arg0 : TRef sig ⟨S4096x16384, .f32⟩) (.of main_call1_v5 : TRef sig ⟨S16384x1, .i32⟩) (.of main_call1_v13 : TRef sig ⟨S4096x16384, .f32⟩) (fun x i => Host.gather gather_S4096x16384_S16384x1_S4096x16384_0_1_n_n_1_1_40961 x i),
    TRef.unary (.of main_call1_v12 : TRef sig ⟨S16384, .i1⟩) (.of main_call1_v14 : TRef sig ⟨S4096x16384, .i1⟩) (broadcastInDim S4096x16384 ![1] bcast_S16384_S4096x16384_1),
    TRef.nullary (.of main_call1_cst : TRef sig ⟨S_, .f32⟩) (constant S_ .f32 0x7FC00000#32),
    TRef.unary (.of main_call1_cst : TRef sig ⟨S_, .f32⟩) (.of main_call1_v15 : TRef sig ⟨S4096x16384, .f32⟩) (broadcastInDim S4096x16384 ![] bcast_S_S4096x16384),
    TRef.ternary (.of main_call1_v14 : TRef sig ⟨S4096x16384, .i1⟩) (.of main_call1_v13 : TRef sig ⟨S4096x16384, .f32⟩) (.of main_call1_v15 : TRef sig ⟨S4096x16384, .f32⟩) (.of main_v1 : TRef sig ⟨S4096x16384, .f32⟩) select,
    unary main_arg1 main_v2 (broadcastInDim S1x16384 ![1] bcast_S16384_S1x16384_1 : (⟨S16384, .f32⟩ : BufTy).Contents (Elt F) → (⟨S1x16384, .f32⟩ : BufTy).Contents (Elt F)),
    unary main_v2 main_v3 (broadcastInDim S4096x16384 ![0, 1] bcast_S1x16384_S4096x16384_0_1 : (⟨S1x16384, .f32⟩ : BufTy).Contents (Elt F) → (⟨S4096x16384, .f32⟩ : BufTy).Contents (Elt F)),
    binary main_v1 main_v3 main_v4 (mulf : (⟨S4096x16384, .f32⟩ : BufTy).Contents (Elt F) → (⟨S4096x16384, .f32⟩ : BufTy).Contents (Elt F) → (⟨S4096x16384, .f32⟩ : BufTy).Contents (Elt F)),
    nullary main_cst (constant S_ .f32 0x00000000#32),
    binary main_v4 main_cst main_v5 ((fun x v => Host.reduceAdd x v reducesTo_S4096x16384_S4096_d1 h_S_) : (⟨S4096x16384, .f32⟩ : BufTy).Contents (Elt F) → (⟨S_, .f32⟩ : BufTy).Contents (Elt F) → (⟨S4096, .f32⟩ : BufTy).Contents (Elt F)),
    unary main_v5 main_v6 (broadcastInDim S4096x1 ![0] bcast_S4096_S4096x1_0 : (⟨S4096, .f32⟩ : BufTy).Contents (Elt F) → (⟨S4096x1, .f32⟩ : BufTy).Contents (Elt F)),
    nullary main_cst_0 (constant S_ .f32 0x46800000#32),
    unary main_cst_0 main_v7 (broadcastInDim S4096x1 ![] bcast_S_S4096x1 : (⟨S_, .f32⟩ : BufTy).Contents (Elt F) → (⟨S4096x1, .f32⟩ : BufTy).Contents (Elt F)),
    binary main_v6 main_v7 main_v8 (Host.divf : (⟨S4096x1, .f32⟩ : BufTy).Contents (Elt F) → (⟨S4096x1, .f32⟩ : BufTy).Contents (Elt F) → (⟨S4096x1, .f32⟩ : BufTy).Contents (Elt F)),
    nullary main_cst_1 (constant S_ .f32 0x3DCCCCCD#32),
    unary main_cst_1 main_v9 (broadcastInDim S4096x1 ![] bcast_S_S4096x1 : (⟨S_, .f32⟩ : BufTy).Contents (Elt F) → (⟨S4096x1, .f32⟩ : BufTy).Contents (Elt F)),
    binary main_v9 main_v8 main_v10 (mulf : (⟨S4096x1, .f32⟩ : BufTy).Contents (Elt F) → (⟨S4096x1, .f32⟩ : BufTy).Contents (Elt F) → (⟨S4096x1, .f32⟩ : BufTy).Contents (Elt F)),
    unary main_v10 main_v11 (broadcastInDim S4096x16384 ![0, 1] bcast_S4096x1_S4096x16384_0_1 : (⟨S4096x1, .f32⟩ : BufTy).Contents (Elt F) → (⟨S4096x16384, .f32⟩ : BufTy).Contents (Elt F)),
    binary main_v4 main_v11 main_v12 (subf : (⟨S4096x16384, .f32⟩ : BufTy).Contents (Elt F) → (⟨S4096x16384, .f32⟩ : BufTy).Contents (Elt F) → (⟨S4096x16384, .f32⟩ : BufTy).Contents (Elt F)),
    nullary main_cst_2 (constant S_ .f32 0x00000000#32),
    unary main_cst_2 main_v13 (broadcastInDim S4096x16384 ![] bcast_S_S4096x16384 : (⟨S_, .f32⟩ : BufTy).Contents (Elt F) → (⟨S4096x16384, .f32⟩ : BufTy).Contents (Elt F)),
    binary main_v12 main_v13 main_v14 (maximumf : (⟨S4096x16384, .f32⟩ : BufTy).Contents (Elt F) → (⟨S4096x16384, .f32⟩ : BufTy).Contents (Elt F) → (⟨S4096x16384, .f32⟩ : BufTy).Contents (Elt F)) ]

set_option maxRecDepth 4096 in
set_option maxHeartbeats 4000000 in
/-- @main is that straight line: each function's definition opened at its call and sequencing reassociated, both
    sides are one chain of the same steps. -/
theorem main_eq (c : Dev nD) : main (F := F) c = seq ops := by
  simp only [main, fn_remainder.body, fn_where.body, fn_take.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., unary_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., unary_bufs_sub ..,
    nullary_bufs_sub .., unary_bufs_sub .., ternary_bufs_sub .., unary_bufs_sub .., unary_bufs_sub .., binary_bufs_sub ..,
    nullary_bufs_sub .., binary_bufs_sub .., unary_bufs_sub .., nullary_bufs_sub .., unary_bufs_sub .., binary_bufs_sub ..,
    nullary_bufs_sub .., unary_bufs_sub .., binary_bufs_sub .., unary_bufs_sub .., binary_bufs_sub .., nullary_bufs_sub ..,
    unary_bufs_sub .., binary_bufs_sub ..⟩

/-- On the device, for any float values, from any memory with zero counters: every weakly fair execution of
    @main terminates with each buffer at the fold of the 62 operations' results over the launch's contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.LibIndexWrap.lean ====
/-
  Signed index words wrapped the NumPy way, and masks that are all ones.

  An index word `s` into an axis of extent `n` is wrapped as `if s < 0 then s + n else s` (signed compare, wrapping
  add). If `-n ≤ s < n` as a signed integer, the wrapped word lies in `[0, n)`, so a range test
  `0 ≤ s' ∧ s' ≤ n - 1` of it is the bit 1 (`wrap_inRange`, `rangeTest_wrap`). A reduce by `and` from the initial
  bit 1 over bits that are all 1 is 1 at every result index (`reduce_andi_of_all`, the converse of the library's
  `Host.reduce_andi_eq_one`), and a select under a mask that is 1 everywhere is its first branch (`select_of_ones`).
-/
import Idealize.ShloMosaic.Lib.ReduceAll
import Idealize.ShloMosaic.Lib.StableHlo.Predicate

namespace Idealize.ShloMosaic.IndexWrap

open Idealize.ShloMosaic

/-- NumPy's wrap of a signed index word into an axis of extent `n`: a negative index counts from the end. -/
def wrapWord (n s : BitVec 32) : BitVec 32 := Scalar.select (IntOp.cmpi .slt s 0#32) (IntOp.addi s n) s

/-- A signed index in `[-n, n)` wraps into `[0, n)`. -/
theorem wrap_inRange (n : Nat) (hn : n < 2 ^ 30) (s : BitVec 32) (h1 : -(n : Int) ≤ s.toInt) (h2 : s.toInt < n) :
    0 ≤ (wrapWord (BitVec.ofNat 32 n) s).toInt ∧ (wrapWord (BitVec.ofNat 32 n) s).toInt < n := by
  have hz : (0#32 : BitVec 32).toInt = 0 := by decide
  have hnI : (BitVec.ofNat 32 n).toInt = n := StableHlo.Predicate.toInt_ofNat_small n (by omega)
  unfold wrapWord Scalar.select
  by_cases hs : IntOp.cmpi .slt s 0#32 = 1
  · rw [if_pos hs]
    have hneg : s.toInt < 0 := by have := IntOp.cmpi_slt.1 hs; rwa [hz] at this
    have hsum : (IntOp.addi s (BitVec.ofNat 32 n)).toInt = s.toInt + n := by
      rw [IntOp.addi, BitVec.toInt_add, hnI]
      exact Int.bmod_eq_of_le (by omega) (by omega)
    rw [hsum]; omega
  · rw [if_neg hs]
    have hnn : ¬ s.toInt < 0 := fun h => hs (IntOp.cmpi_slt.2 (by rw [hz]; exact h))
    omega

/-- The range test `0 ≤ s' ∧ s' ≤ hi` (signed) of a wrapped index, `hi` the word of `n - 1`, is the bit 1. -/
theorem rangeTest_wrap (n : Nat) (hn0 : 0 < n) (hn : n < 2 ^ 30) (hi : BitVec 32) (hhi : hi.toInt = (n : Int) - 1)
    (s : BitVec 32) (h1 : -(n : Int) ≤ s.toInt) (h2 : s.toInt < n) :
    IntOp.andi (IntOp.cmpi .sge (wrapWord (BitVec.ofNat 32 n) s) 0#32) (IntOp.cmpi .sle (wrapWord (BitVec.ofNat 32 n) s) hi) = 1#1 := by
  have hz : (0#32 : BitVec 32).toInt = 0 := by decide
  obtain ⟨h0, hlt⟩ := wrap_inRange n hn s h1 h2
  exact IntOp.andi_eq_one.2 ⟨IntOp.cmpi_sge.2 (by rw [hz]; exact h0), IntOp.cmpi_sle.2 (by rw [hhi]; omega)⟩

/-- A left fold by `and` from 1 over bits that are all 1 is 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    exact foldl_andi_ones f l _ (IntOp.andi_eq_one.2 ⟨h, hl a (List.mem_cons_self ..)⟩) (fun n hn => hl n (List.mem_cons_of_mem _ hn))

/-- A reduce by `and` from the initial bit 1 over an operand that is 1 everywhere is 1 at every result index. -/
theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_ones x _ _ (hinit _) (fun i _ => hx i)

/-- Under a mask that is 1 everywhere a select is its first branch. -/
theorem select_of_ones {α : Type} {s : Shape} (c : IVec s 1) (a b : s.Idx → α) (hc : ∀ i, c i = 1#1) : select c a b = a :=
  funext fun i => by
    show Scalar.select (c i) (a i) (b i) = a i
    rw [hc i]; exact if_pos rfl

end Idealize.ShloMosaic.IndexWrap
-- ==== Proof.RefValue.lean ====
/-
  The reference program computes the specification.

  Read back, the program's 62 operations are three functions in a row.  The first takes each preference word to
  its remainder by 16384 in NumPy's sense: a word in [0, 16384).  The second gathers, for every neuron, the whole
  column of the feature array that the word names; the program first moves a negative word up by 16384 and tests
  the moved word against [0, 16383], filling an entry with a not-a-number where the test fails, but a word that is
  already in [0, 16384) is not moved, passes the test and is not clamped, so the gathered entry at row b, neuron n
  is the feature array's at row b and the neuron's column.  The third multiplies by the neuron's weight, sums each
  row, divides by 16384, takes a tenth, subtracts and rectifies: with the literals kept as the words the program
  prints, exactly `Cert.Gather.Gat`.
-/
import proofs.«400493_j87935160418550_1_alg».proof.Proof.RefRun
import proofs.«400493_j87935160418550_1_alg».proof.Proof.Spec
import proofs.«400493_j87935160418550_1_alg».proof.Proof.ModRange
import proofs.«400493_j87935160418550_1_alg».proof.Proof.LibIndexWrap
import proofs.«400493_j87935160418550_1_alg».proof.Proof.LibTRef
import Idealize.ShloMosaic.Lib.ValueIdx
import Idealize.ShloMosaic.PureOps.Ideal.Laws
import Idealize.ShloMosaic.Lib.StableHlo.Predicate

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-! ## The three stages, for any float values -/

section Stages
variable {F : FTy → Type} [FloatOps F]

/-- The remainder's operations as one function of the preference words: the divisor (16384 unless that were zero),
    the truncating remainder by it, and that remainder moved up by the divisor where it is not zero and its sign
    differs from the divisor's. -/
def pmod (a2 : IVec S16384 32) : IVec S16384 32 :=
  let d : IVec S_ 32 := select (cmpi .eq (constantI S_ 32 16384#32) (constantI S_ 32 0#32)) (constantI S_ 32 1#32) (constantI S_ 32 16384#32)
  let r : IVec S16384 32 := Host.remsi a2 (broadcastInDim S16384 ![] bcast_S_S16384 d)
  select
    (andi
      (cmpi .ne (cmpi .slt r (broadcastInDim S16384 ![] bcast_S_S16384 (constantI S_ 32 0#32)))
        (broadcastInDim S16384 ![] bcast_S_S16384 (cmpi .slt d (constantI S_ 32 0#32))))
      (cmpi .ne r (broadcastInDim S16384 ![] bcast_S_S16384 (constantI S_ 32 0#32))))
    (addi r (broadcastInDim S16384 ![] bcast_S_S16384 d))
    r

/-- The gather's operations as one function of the feature array and the column words: a negative word is moved up
    by 16384, the moved word is tested against [0, 16383], the array is gathered at the moved words (one column per
    neuron, the whole column of 4096 rows), and where the test fails the entry is the fill value instead. -/
def take (a0 : FVec F S4096x16384 .f32) (p : IVec S16384 32) : FVec F S4096x16384 .f32 :=
  let p' : IVec S16384 32 :=
    select (cmpi .slt p (broadcastInDim S16384 ![] bcast_S_S16384 (constantI S_ 32 0#32)))
      (addi p (broadcastInDim S16384 ![] bcast_S_S16384 (constantI S_ 32 16384#32))) p
  let q : IVec S16384x1 32 := broadcastInDim S16384x1 ![0] bcast_S16384_S16384x1_0 p'
  let ok : IVec S16384x1 1 :=
    andi (cmpi .sge q (broadcastInDim S16384x1 ![] bcast_S_S16384x1 (constantI S_ 32 0#32)))
      (cmpi .sle q (broadcastInDim S16384x1 ![0, 1] bcast_S1x1_S16384x1_0_1
        (broadcastInDim S1x1 ![1] bcast_S1_S1x1_1 (constantI S1 32 16383#32))))
  select
    (broadcastInDim S4096x16384 ![1] bcast_S16384_S4096x16384_1
      (Host.reduce IntOp.andi ok (constantI S_ 1 1#1) reducesTo_S16384x1_S16384_d1 h_S_))
    (Host.gather gather_S4096x16384_S16384x1_S4096x16384_0_1_n_n_1_1_40961 a0 q)
    (broadcastInDim S4096x16384 ![] bcast_S_S4096x16384 (constant S_ .f32 0x7FC00000#32))

/-- @main's own operations as one function of the gathered array and the weights: the product with the weights laid
    along each row, the row sums, their quotient by 16384, a tenth of it, the difference and the rectification. -/
def tail (g : FVec F S4096x16384 .f32) (a1 : FVec F S16384 .f32) : FVec F S4096x16384 .f32 :=
  let s : FVec F S4096x16384 .f32 :=
    mulf g (broadcastInDim S4096x16384 ![0, 1] bcast_S1x16384_S4096x16384_0_1 (broadcastInDim S1x16384 ![1] bcast_S16384_S1x16384_1 a1))
  let mean : FVec F S4096x1 .f32 :=
    Host.divf
      (broadcastInDim S4096x1 ![0] bcast_S4096_S4096x1_0
        (Host.reduceAdd s (constant S_ .f32 0x00000000#32) reducesTo_S4096x16384_S4096_d1 h_S_))
      (broadcastInDim S4096x1 ![] bcast_S_S4096x1 (constant S_ .f32 0x46800000#32))
  maximumf
    (subf s (broadcastInDim S4096x16384 ![0, 1] bcast_S4096x1_S4096x16384_0_1
      (mulf (broadcastInDim S4096x1 ![] bcast_S_S4096x1 (constant S_ .f32 0x3DCCCCCD#32)) mean)))
    (broadcastInDim S4096x16384 ![] bcast_S_S4096x16384 (constant S_ .f32 0x00000000#32))

attribute [local irreducible] Host.reduce Host.gather Host.reduceAdd in
/-- The result buffer after the 62 operations holds the three stages composed, of the three arguments as the
    launch dealt them: each operation's result is its function of its operands' results, and moving a value to a
    buffer's own type and back is the identity. -/
theorem out_eq (V : Valuation τ sig (Elt F)) :
    after ops V (main_v14 : DevRef τ sig)
      = tail (take (V (main_arg0 : DevRef τ sig)) (pmod (V (main_arg2 : DevRef τ sig)))) (V (main_arg1 : DevRef τ sig)) := by
  after_results_simp
  simp only [TRef.ofBuf, TRef.toBuf, cast_eq]
  rfl

/-- No operation writes an argument. -/
theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp

end Stages

/-! ## The remainder at an index

Every operation of the first stage acts entry by entry, the scalar ones (the divisor, its sign test) laid out from
rank zero: at each index the stage is the word function of the specification. -/

theorem pmod_apply (a2 : IVec S16384 32) (i : S16384.Idx) : pmod a2 i = Cert.Gather.pmodWord (a2 i) := rfl

/-! ## Arrays laid out along an axis, read at an index -/

section Reads
variable {α : Type}

/-- A vector of 16384 entries as a column of 16384 rows: row n holds entry n. -/
theorem col_of_vec (v : S16384.Idx → α) (n : Fin 16384) :
    broadcastInDim S16384x1 ![0] bcast_S16384_S16384x1_0 v (ix2 n (0 : Fin 1)) = v (ix1 n) := by
  simp only [broadcastInDim]
  congr 1
  funext a
  match a with
  | ⟨0, _⟩ => rfl

/-- A vector of 16384 entries repeated down 4096 rows in two steps: entry (b, n) holds entry n. -/
theorem rows_of_vec (v : S16384.Idx → α) (b : Fin 4096) (n : Fin 16384) :
    broadcastInDim S4096x16384 ![0, 1] bcast_S1x16384_S4096x16384_0_1 (broadcastInDim S1x16384 ![1] bcast_S16384_S1x16384_1 v) (ix2 b n)
      = v (ix1 n) := by
  simp only [broadcastInDim]
  congr 1
  funext a
  match a with
  | ⟨0, _⟩ => rfl

/-- A vector of 4096 entries as a column of 4096 rows: row b holds entry b. -/
theorem keep_of_vec (v : S4096.Idx → α) (b : Fin 4096) :
    broadcastInDim S4096x1 ![0] bcast_S4096_S4096x1_0 v (ix2 b (0 : Fin 1)) = v (ix1 b) := by
  simp only [broadcastInDim]
  congr 1
  funext a
  match a with
  | ⟨0, _⟩ => rfl

/-- A column of 4096 rows repeated along each row: entry (b, n) holds row b. -/
theorem along_row (v : S4096x1.Idx → α) (b : Fin 4096) (n : Fin 16384) :
    broadcastInDim S4096x16384 ![0, 1] bcast_S4096x1_S4096x16384_0_1 v (ix2 b n) = v (ix2 b (0 : Fin 1)) := by
  simp only [broadcastInDim]
  congr 1
  funext a
  match a with
  | ⟨0, _⟩ => rfl
  | ⟨1, _⟩ => rfl

end Reads

/-! ## The gather at an index

The result's row axis is the one offset axis and reads the operand's rows whole (slice size 4096, start 0); the
operand's column axis is collapsed and is the one the start index names, so the column read is the start index of
the neuron, read signed and clamped into [0, 16383]; there is no batching axis. -/

theorem gather_col {α : Type} (x : S4096x16384.Idx → α) (q : IVec S16384x1 32) (b : Fin 4096) (n : Fin 16384) :
    Host.gather gather_S4096x16384_S16384x1_S4096x16384_0_1_n_n_1_1_40961 x q (ix2 b n)
      = x (ix2 b ⟨min (q (ix2 n (0 : Fin 1))).toInt.toNat 16383, by omega⟩) := by
  unfold Host.gather
  congr 1
  funext a
  apply Fin.ext
  match a with
  | ⟨0, _⟩ =>
    -- the row: no start (axis 0 is not in the start index map), no batching, the offset coordinate is the row
    show gather_S4096x16384_S16384x1_S4096x16384_0_1_n_n_1_1_40961.start (ix2 b n) q 0
        + gather_S4096x16384_S16384x1_S4096x16384_0_1_n_n_1_1_40961.batchCoord (ix2 b n) 0
        + gather_S4096x16384_S16384x1_S4096x16384_0_1_n_n_1_1_40961.offCoord (ix2 b n) 0 = b.val
    rw [GatherDims.batchCoord_eq_zero _ _ _ List.not_mem_nil]
    unfold GatherDims.start
    rw [dif_neg (show (0 : Fin 2) ∉ gather_S4096x16384_S16384x1_S4096x16384_0_1_n_n_1_1_40961.startIndexMap by decide)]
    unfold GatherDims.offCoord
    rw [dif_pos (show (0 : Fin 2) ∈ gather_S4096x16384_S16384x1_S4096x16384_0_1_n_n_1_1_40961.sKept by decide)]
    simp only [Nat.zero_add, Nat.add_zero]
    rfl
  | ⟨1, _⟩ =>
    -- the column: the clamped start index of neuron n, no batching, no offset (the axis is collapsed)
    show gather_S4096x16384_S16384x1_S4096x16384_0_1_n_n_1_1_40961.start (ix2 b n) q 1
        + gather_S4096x16384_S16384x1_S4096x16384_0_1_n_n_1_1_40961.batchCoord (ix2 b n) 1
        + gather_S4096x16384_S16384x1_S4096x16384_0_1_n_n_1_1_40961.offCoord (ix2 b n) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S4096x16384_S16384x1_S4096x16384_0_1_n_n_1_1_40961.startIndexMap from List.mem_singleton.mpr rfl)]
    have hsi : gather_S4096x16384_S16384x1_S4096x16384_0_1_n_n_1_1_40961.siIdx (ix2 b n)
        ⟨List.idxOf (1 : Fin 2) gather_S4096x16384_S16384x1_S4096x16384_0_1_n_n_1_1_40961.startIndexMap,
          List.idxOf_lt_length_iff.2 (List.mem_singleton.mpr rfl)⟩ = ix2 n (0 : Fin 1) := by
      funext c; refine Fin.ext ?_
      match c with
      | ⟨0, _⟩ => rfl
      | ⟨1, _⟩ => rfl
    rw [hsi]
    rfl

/-! ## The gathered array at an index, for column words below 16384 -/

/-- A word below 16384 read unsigned is the same integer read signed. -/
theorem toInt_small (s : BitVec 32) (h : s.toNat < 16384) : s.toInt = s.toNat :=
  Predicate.toInt_eq_toNat_of_lt (by omega)

/-- So it is not negative, and moving negative words up by 16384 keeps it. -/
theorem wrap_small (s : BitVec 32) (h : s.toNat < 16384) : IndexWrap.wrapWord 16384#32 s = s := by
  unfold IndexWrap.wrapWord Scalar.select
  rw [if_neg]
  intro hc
  have h1 := IntOp.cmpi_slt.1 hc
  rw [toInt_small s h, show (0#32 : BitVec 32).toInt = 0 by decide] at h1
  omega

/-- With every column word below 16384 the range test holds at every neuron, so no entry is the fill value, and
    the clamp is the identity: entry (b, n) is the feature array's at row b, column the word of neuron n. -/
theorem take_apply {F : FTy → Type} [FloatOps F] (a0 : FVec F S4096x16384 .f32) (p : IVec S16384 32)
    (hp : ∀ i, (p i).toNat < 16384) (b : Fin 4096) (n : Fin 16384) :
    take a0 p (ix2 b n) = a0 (ix2 b ⟨(p (ix1 n)).toNat, hp _⟩) := by
  unfold take
  dsimp only
  rw [IndexWrap.select_of_ones _ _ _ (fun i => ?mask)]
  case mask =>
    show Host.reduce IntOp.andi _ _ _ _ _ = 1#1
    refine IndexWrap.reduce_andi_of_all _ _ _ _ (fun _ => rfl) (fun j => ?_) _
    exact IndexWrap.rangeTest_wrap 16384 (by decide) (by decide) 16383#32 (by decide) (p _)
      (by rw [toInt_small _ (hp _)]; omega) (by rw [toInt_small _ (hp _)]; exact Int.ofNat_lt.2 (hp _))
  refine (gather_col a0 _ b n).trans (congrArg a0 ?_)
  funext a
  match a with
  | ⟨0, _⟩ => rfl
  | ⟨1, _⟩ =>
    refine Fin.ext ?_
    show min ((broadcastInDim S16384x1 ![0] bcast_S16384_S16384x1_0 (fun i => IndexWrap.wrapWord 16384#32 (p i))) (ix2 n (0 : Fin 1))).toInt.toNat 16383
      = (p (ix1 n)).toNat
    rw [col_of_vec, wrap_small _ (hp _), toInt_small _ (hp _), Int.toNat_natCast]
    have := hp (ix1 n)
    omega

/-! ## The last stage at an index, at the ideal values -/

/-- A float literal laid out over any shape reads the literal's value everywhere. -/
theorem splat_apply {t : Shape} (h : S_.BroadcastsInDim t ![]) (w : BitVec 32) (j : t.Idx) :
    broadcastInDim t ![] h (constant (F := Ideal) S_ .f32 w) j = Ideal.ofBits .f32 w := rfl

theorem hostDivf_apply {s : Shape} (x y : FVec Ideal s .f32) (i : s.Idx) : Host.divf x y i = Ideal.div (x i) (y i) := rfl

/-- A row's sum from the zero literal: the sum over the 16384 columns (the literal's value is 0). -/
theorem rowsum (s : FVec Ideal S4096x16384 .f32) (b : Fin 4096) :
    Host.reduceAdd (F := Ideal) s (constant (F := Ideal) S_ .f32 0x00000000#32) reducesTo_S4096x16384_S4096_d1 h_S_ (ix1 b)
      = ∑ k : Fin 16384, s (ix2 b k) := by
  have h : Shape.Reduces S4096x16384 [1] S4096 := by decide
  show Ideal.hostReduceAdd reducesTo_S4096x16384_S4096_d1 s (Ideal.ofBits .f32 0x00000000#32) (ix1 b) = _
  rw [Ideal.hostReduceAdd_single _ h, Ideal.ofBits_zero_f32, zero_add]
  refine Finset.sum_congr rfl fun k _ => congrArg s ?_
  funext c
  match c with
  | ⟨0, _⟩ => rfl
  | ⟨1, _⟩ => rfl

/-- The activity array at an index: the gathered entry times the neuron's weight. -/
theorem prod_apply (g : FVec Ideal S4096x16384 .f32) (a1 : FVec Ideal S16384 .f32) (b : Fin 4096) (k : Fin 16384) :
    mulf g (broadcastInDim S4096x16384 ![0, 1] bcast_S1x16384_S4096x16384_0_1 (broadcastInDim S1x16384 ![1] bcast_S16384_S1x16384_1 a1)) (ix2 b k)
      = g (ix2 b k) * a1 (ix1 k) := by
  rw [mulf_apply, rows_of_vec]

/-- Its row sums. -/
theorem rowsum_prod (g : FVec Ideal S4096x16384 .f32) (a1 : FVec Ideal S16384 .f32) (b : Fin 4096) :
    Host.reduceAdd (F := Ideal)
        (mulf g (broadcastInDim S4096x16384 ![0, 1] bcast_S1x16384_S4096x16384_0_1 (broadcastInDim S1x16384 ![1] bcast_S16384_S1x16384_1 a1)))
        (constant (F := Ideal) S_ .f32 0x00000000#32) reducesTo_S4096x16384_S4096_d1 h_S_ (ix1 b)
      = ∑ k : Fin 16384, g (ix2 b k) * a1 (ix1 k) :=
  (rowsum _ b).trans (Finset.sum_congr rfl fun k _ => prod_apply g a1 b k)

/-- The last stage at row b, neuron n: the activity less the tenth-literal times the row's sum of activities
    divided by the 16384-literal, rectified against the zero literal; the three literals as the printed words. -/
theorem tail_apply (g : FVec Ideal S4096x16384 .f32) (a1 : FVec Ideal S16384 .f32) (b : Fin 4096) (n : Fin 16384) :
    tail (F := Ideal) g a1 (ix2 b n)
      = max (g (ix2 b n) * a1 (ix1 n)
          - (Ideal.ofBits .f32 0x3DCCCCCD#32 : EReal)
            * Ideal.div (∑ n' : Fin 16384, g (ix2 b n') * a1 (ix1 n')) (Ideal.ofBits .f32 0x46800000#32))
        (Ideal.ofBits .f32 0x00000000#32) := by
  unfold tail
  dsimp only
  simp only [maximumf_apply, subf_apply, mulf_apply]
  rw [rows_of_vec, along_row, mulf_apply, hostDivf_apply, keep_of_vec, rowsum_prod]
  rfl

/-! ## The three stages are the specification -/

/-- The remainder is below 16384 (`Cert.Gather.pmodWord_lt`), so the gathered entry of neuron n is the feature
    array's at the column `Cert.Gather.col` of its preference word, and the last stage over those entries is
    `Cert.Gather.Gat` term for term. -/
theorem stages_eq (a0 : FVec Ideal S4096x16384 .f32) (a1 : FVec Ideal S16384 .f32) (a2 : IVec S16384 32) :
    tail (F := Ideal) (take a0 (pmod a2)) a1 = Cert.Gather.G a0 a1 a2 := by
  funext y
  obtain ⟨b, n, rfl⟩ : ∃ (b : Fin 4096) (n : Fin 16384), y = ix2 b n := ⟨y 0, y 1, eq_ix2 y⟩
  have hp : ∀ i, (pmod a2 i).toNat < 16384 := fun i => Cert.Gather.pmodWord_lt (a2 i)
  have hg : ∀ k : Fin 16384, take a0 (pmod a2) (ix2 b k) = a0 (ix2 b (Cert.Gather.col (a2 (ix1 k)))) := fun k =>
    (take_apply a0 (pmod a2) hp b k).trans (congrArg a0 (by
      funext a
      match a with
      | ⟨0, _⟩ => rfl
      | ⟨1, _⟩ => exact Fin.ext (Cert.Gather.col_val (a2 (ix1 k))).symm))
  have hs : (∑ n' : Fin 16384, take a0 (pmod a2) (ix2 b n') * a1 (ix1 n'))
      = ∑ n' : Fin 16384, a0 (ix2 b (Cert.Gather.col (a2 (ix1 n')))) * a1 (ix1 n') :=
    Finset.sum_congr rfl fun k _ => by rw [hg k]
  rw [tail_apply, Cert.Gather.G_ix2, hg n, hs]
  rfl

/-! ## The run -/

/-- On the device, from any memory with zero counters: every weakly fair execution of the reference program
    terminates with its result buffer at the specification of the three arguments, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v14)
          = Cert.Gather.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c main_v14).trans ((out_eq (launchContents m c)).trans (stages_eq _ _ _)),
        (h c main_arg0).trans (arg0_eq (launchContents m c)),
        (h c main_arg1).trans (arg1_eq (launchContents m c)),
        (h c main_arg2).trans (arg2_eq (launchContents m c))⟩)
    (run_ops m ρ)

end Cert.ReferenceIdeal.RefValue

end
-- ==== Proof.lean ====
/-
  The proof of the certificate's claim.

  Both programs compute one function of the three argument arrays.  A neuron's preferred feature is its
  preference word reduced modulo 16384 the NumPy way, a column number; its activity on a batch row is that column
  of the row times the neuron's weight; the result is the activity less a tenth of the row's mean activity,
  rectified at zero.  The reference takes the column with a gather whose wrap, range test and fill leave the
  plain gather because the reduced word is a column number.  The kernel takes it as a product with a one-hot
  matrix built tile by tile and accumulated over 128 tiles of 128 features: on the extended reals a product with
  one is the factor and a product with zero is zero, infinities included, so the accumulated sum is the one entry
  at the neuron's column, and the scaling, the mean and the rectifier that follow are the reference's operations in
  the reference's order with the same literals.  No step needs the inputs finite.

  The three frames: the two kernel programs' by their generated frame runs, the reference's by its run read back.
  The idealization rewrote nothing, so what it preserves is trivial.
-/
import proofs.«400493_j87935160418550_1_alg».proof.Defs
import proofs.«400493_j87935160418550_1_alg».proof.Proof.Gen.Kernel
import proofs.«400493_j87935160418550_1_alg».proof.Proof.Gen.Kernel.Frame
import proofs.«400493_j87935160418550_1_alg».proof.Proof.Gen.KernelIdeal
import proofs.«400493_j87935160418550_1_alg».proof.Proof.Gen.KernelIdeal.Frame
import proofs.«400493_j87935160418550_1_alg».proof.Proof.Gen.ReferenceIdeal
import proofs.«400493_j87935160418550_1_alg».proof.Proof.Gen.Pre_finite_inputs
import proofs.«400493_j87935160418550_1_alg».proof.Proof.KernelValue
import proofs.«400493_j87935160418550_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- From memories that agree on the arguments both programs end at the result function of the arguments. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
